-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x3 : Shape := ⟨3, ![4, 4096, 3]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel

variable [Facts]

def fn {F : FTy → Type} [FloatOps F] (main_arg0 : FVec F S4x4096x3 .f32) (main_arg1 : FVec F S4x4096x3 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S4x4096x3 .f32 := Host.absf main_arg1
  let main_cst_0 : FVec F S_ .f32 := constant S_ .f32 0x7F800000#32
  let main_v5 : FVec F S4x4096x3 .f32 := broadcastInDim S4x4096x3 ![] bcast_S_S4x4096x3 main_cst_0
  let main_v6 : IVec S4x4096x3 1 := cmpf .olt main_v4 main_v5
  let main_c_1 : IVec S_ 1 := constantI S_ 1 1#1
  let main_v7 : IVec S_ 1 := (fun x v => Host.reduce IntOp.andi x v reducesTo_S4x4096x3_S_d0_1_2 h_S_) main_v6 main_c_1
  let main_v8 : IVec S_ 1 := andi main_v3 main_v7
  main_v8
-- ==== Kernel.lean ====
abbrev S4x4096x3 : Shape := ⟨3, ![4, 4096, 3]⟩
abbrev S4x3x4096 : Shape := ⟨3, ![4, 3, 4096]⟩
abbrev S4x1x128 : Shape := ⟨3, ![4, 1, 128]⟩
abbrev S1x1024x3 : Shape := ⟨3, ![1, 1024, 3]⟩
abbrev S1x3x1024 : Shape := ⟨3, ![1, 3, 1024]⟩
abbrev S1x1x128 : Shape := ⟨3, ![1, 1, 128]⟩
abbrev S1x4096 : Shape := ⟨2, ![1, 4096]⟩
abbrev S1024x1 : Shape := ⟨2, ![1024, 1]⟩
abbrev S1x1 : Shape := ⟨2, ![1, 1]⟩
abbrev S1024x3 : Shape := ⟨2, ![1024, 3]⟩
abbrev S3x1024 : Shape := ⟨2, ![3, 1024]⟩
abbrev S1024x1024 : Shape := ⟨2, ![1024, 1024]⟩
abbrev S1x1024 : Shape := ⟨2, ![1, 1024]⟩
abbrev S1024 : Shape := ⟨1, ![1024]⟩
abbrev S1 : Shape := ⟨1, ![1]⟩
abbrev S1x1x1 : Shape := ⟨3, ![1, 1, 1]⟩
abbrev S4x1x1 : Shape := ⟨3, ![4, 1, 1]⟩
abbrev S4 : Shape := ⟨1, ![4]⟩
abbrev S_ : Shape := ⟨0, ![]⟩

abbrev nBuf : Space → Nat
  | .hbm => 14
  | .vmem => 12
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x3x4096, .f32⟩
  | .hbm, ⟨3, _⟩ => ⟨S4x1x128, .f32⟩
  | .hbm, ⟨4, _⟩ => ⟨S4x1x128, .f32⟩
  | .hbm, ⟨5, _⟩ => ⟨S4x1x1, .f32⟩
  | .hbm, ⟨6, _⟩ => ⟨S4, .f32⟩
  | .hbm, ⟨7, _⟩ => ⟨S_, .f32⟩
  | .hbm, ⟨8, _⟩ => ⟨S_, .f32⟩
  | .hbm, ⟨9, _⟩ => ⟨S4x1x1, .f32⟩
  | .hbm, ⟨10, _⟩ => ⟨S4, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x3x1024, .f32⟩
  | .local _ .vmem, ⟨3, _⟩ => ⟨S1x3x1024, .f32⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | .local _ .vmem, ⟨8, _⟩ => ⟨S1x4096, .f32⟩
  | .local _ .vmem, ⟨9, _⟩ => ⟨S1024x1, .f32⟩
  | .local _ .vmem, ⟨10, _⟩ => ⟨S1x1, .f32⟩
  | .local _ .vmem, ⟨11, _⟩ => ⟨S1x1, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

def k0_mult1 (i : grid0.Coords) : BitVec 32 :=
  let arg2 : BitVec 32 := BitVec.ofNat 32 (i 2).val
  let c1024_i32 : BitVec 32 := 1024#32
  let v44 : BitVec 32 := Scalar.muli arg2 c1024_i32
  v44
def k0_off1 (i : grid0.Coords) : Fin 2 → Nat :=
  let c0_15 : Index := 0#32
  let arg2 : BitVec 32 := BitVec.ofNat 32 (i 2).val
  let c1024_i32 : BitVec 32 := 1024#32
  let v44 : BitVec 32 := Scalar.muli arg2 c1024_i32
  let v45 : BitVec 32 := v44
  let v46 : Index := Scalar.indexCast v45
  ![0, v46.toNat]
def k0_cond4 (i : grid0.Coords) : BitVec 1 :=
  let arg1 : BitVec 32 := BitVec.ofNat 32 (i 1).val
  let c3_i32_18 : BitVec 32 := 3#32
  let v56 : BitVec 1 := Scalar.cmpi .eq arg1 c3_i32_18
  let arg2 : BitVec 32 := BitVec.ofNat 32 (i 2).val
  let c3_i32_19 : BitVec 32 := 3#32
  let v57 : BitVec 1 := Scalar.cmpi .eq arg2 c3_i32_19
  let v58 : BitVec 1 := Scalar.andi v56 v57
  let v59 : BitVec 32 := Scalar.extui v58
  let c0_i32_20 : BitVec 32 := 0#32
  let v60 : BitVec 1 := Scalar.cmpi .ne v59 c0_i32_20
  v60

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  transposes_S4x4096x3_S4x3x4096_0_2_1 : S4x4096x3.Transposes [0, 2, 1] S4x3x4096
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  inb_S1x3x1024_S1x3x1024_0_0_0 : ∀ a, (![0, 0, 0] : Fin 3 → Nat) a + S1x3x1024.size a ≤ S1x3x1024.size a
  h_S1x3x1024 : 0 < S1x3x1024.numel
  shapeCasts_S1x3x1024_S3x1024 : S1x3x1024.ShapeCasts S3x1024
  slices_S1024x3_o0_0_S1024x1 : S1024x3.Slices ![0, 0] S1024x1
  slices_S3x1024_o0_0_S1x1024 : S3x1024.Slices ![0, 0] S1x1024
  broadcasts_S1024x1_S1024x1024 : S1024x1.Broadcasts S1024x1024
  broadcasts_S1x1024_S1024x1024 : S1x1024.Broadcasts S1024x1024
  slices_S1024x3_o0_1_S1024x1 : S1024x3.Slices ![0, 1] S1024x1
  slices_S3x1024_o1_0_S1x1024 : S3x1024.Slices ![1, 0] S1x1024
  slices_S1024x3_o0_2_S1024x1 : S1024x3.Slices ![0, 2] S1024x1
  slices_S3x1024_o2_0_S1x1024 : S3x1024.Slices ![2, 0] S1x1024
  reduces_S1024x1024_S1024 : S1024x1024.Reduces [1] S1024
  shapeCasts_S1024_S1024x1 : S1024.ShapeCasts S1024x1
  reduces_S1024x1024_S1024_2 : S1024x1024.Reduces [0] S1024
  shapeCasts_S1024_S1x1024 : S1024.ShapeCasts S1x1024
  h_S1x1024 : 0 < S1x1024.numel
  shapeCasts_S1x1024_S1x1024 : S1x1024.ShapeCasts S1x1024
  reduces_S1024x1_S1 : S1024x1.Reduces [0] S1
  shapeCasts_S1_S1x1 : S1.ShapeCasts S1x1
  reduces_S1x4096_S1 : S1x4096.Reduces [1] S1
  shapeCasts_S1x1_S1x1x1 : S1x1.ShapeCasts S1x1x1
  shapeCasts_S1x1x1_S1x1x1 : S1x1x1.ShapeCasts S1x1x1
  broadcasts_S1x1x1_S1x1x128 : S1x1x1.Broadcasts S1x1x128
  inb_S1x1x128_S1x1x128_0_0_0 : ∀ a, (![0, 0, 0] : Fin 3 → Nat) a + S1x1x128.size a ≤ S1x1x128.size a
  h_S1x1x128 : 0 < S1x1x128.numel
  slices_S4x1x128_S4x1x1_0_0_0 : S4x1x128.Slices ![0, 0, 0] S4x1x1
  shapeCasts_S4x1x1_S4 : S4x1x1.ShapeCasts S4
  reducesTo_S4_S_d0 : S4.ReducesTo [0] S_
  h_S_ : 0 < S_.numel
  hrank0 : 0 < grid0.rank
  k0_mult1_dvd : ∀ i : grid0.Coords, 1024 ∣ (k0_mult1 i).toNat
  k0_off1_inb : ∀ i : grid0.Coords, ∀ a, (k0_off1 i) a + S1x1024.size a ≤ S1x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S4x4096x3.size a
  hwx0_0 : ∀ i : grid0.Coords, EltTy.bits .f32 = 32 ∨ (Rect.block (s := S4x4096x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x1024.size a ≤ S4x3x4096.size a
  hwx0_1 : ∀ i : grid0.Coords, EltTy.bits .f32 = 32 ∨ (Rect.block (s := S4x3x4096) S1x3x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S4x1x128.size a
  hwx0_2 : ∀ i : grid0.Coords, EltTy.bits .f32 = 32 ∨ (Rect.block (s := S4x1x128) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S4x1x128.size a
  hwx0_3 : ∀ i : grid0.Coords, EltTy.bits .f32 = 32 ∨ (Rect.block (s := S4x1x128) S1x1x128.size (cc0_transform_3 i) (hinb0_3 i)).WholeWords (EltTy.packing .f32)

variable [Facts₀]

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x1x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond4 i == 1#1) | 3 => fun i => !(k0_cond4 i == 1#1) | ⟨_ + 4, h⟩ => absurd h (Nat.not_lt.2 (Nat.le_add_left _ _))

class Facts : Prop extends Facts₀ where

variable [Facts]
-- ==== ReferenceIdeal.lean ====
abbrev S4x4096x3 : Shape := ⟨3, ![4, 4096, 3]⟩
abbrev S4x4096x1x3 : Shape := ⟨4, ![4, 4096, 1, 3]⟩
abbrev S4x1x4096x3 : Shape := ⟨4, ![4, 1, 4096, 3]⟩
abbrev S4x4096x4096x3 : Shape := ⟨4, ![4, 4096, 4096, 3]⟩
abbrev S_ : Shape := ⟨0, ![]⟩
abbrev S4x4096x4096 : Shape := ⟨3, ![4, 4096, 4096]⟩
abbrev S4x4096 : Shape := ⟨2, ![4, 4096]⟩

abbrev nBuf : Space → Nat
  | .hbm => 20
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x1x3, .f32⟩
  | .hbm, ⟨3, _⟩ => ⟨S4x1x4096x3, .f32⟩
  | .hbm, ⟨4, _⟩ => ⟨S4x4096x4096x3, .f32⟩
  | .hbm, ⟨5, _⟩ => ⟨S4x4096x4096x3, .f32⟩
  | .hbm, ⟨6, _⟩ => ⟨S4x4096x4096x3, .f32⟩
  | .hbm, ⟨7, _⟩ => ⟨S4x4096x4096x3, .f32⟩
  | .hbm, ⟨8, _⟩ => ⟨S_, .f32⟩
  | .hbm, ⟨9, _⟩ => ⟨S4x4096x4096, .f32⟩
  | .hbm, ⟨10, _⟩ => ⟨S4x4096x4096, .f32⟩
  | .hbm, ⟨11, _⟩ => ⟨S_, .f32⟩
  | .hbm, ⟨12, _⟩ => ⟨S4x4096, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4x4096, .f32⟩
  | .hbm, ⟨17, _⟩ => ⟨S_, .f32⟩
  | .hbm, ⟨18, _⟩ => ⟨S_, .f32⟩
  | .hbm, ⟨19, _⟩ => ⟨S_, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  bcast_S4x4096x3_S4x4096x1x3_0_1_3 : S4x4096x3.BroadcastsInDim S4x4096x1x3 (![0, 1, 3] : Fin 3 → Fin S4x4096x1x3.rank)
  bcast_S4x4096x3_S4x1x4096x3_0_2_3 : S4x4096x3.BroadcastsInDim S4x1x4096x3 (![0, 2, 3] : Fin 3 → Fin S4x1x4096x3.rank)
  bcast_S4x4096x1x3_S4x4096x4096x3_0_1_2_3 : S4x4096x1x3.BroadcastsInDim S4x4096x4096x3 (![0, 1, 2, 3] : Fin 4 → Fin S4x4096x4096x3.rank)
  bcast_S4x1x4096x3_S4x4096x4096x3_0_1_2_3 : S4x1x4096x3.BroadcastsInDim S4x4096x4096x3 (![0, 1, 2, 3] : Fin 4 → Fin S4x4096x4096x3.rank)
  reducesTo_S4x4096x4096x3_S4x4096x4096_d3 : S4x4096x4096x3.ReducesTo [3] S4x4096x4096
  h_S_ : 0 < S_.numel
  reducesTo_S4x4096x4096_S4x4096_d2 : S4x4096x4096.ReducesTo [2] S4x4096
  reducesTo_S4x4096_S_d0_1 : S4x4096.ReducesTo [0, 1] S_
  reducesTo_S4x4096x4096_S4x4096_d1 : S4x4096x4096.ReducesTo [1] S4x4096

variable [Facts₀]

class Facts : Prop extends Facts₀ where

variable [Facts]
-- ==== Proof.Pieces.lean ====
/-
  What each of the five control cases of the kernel body leaves in the four carried scratch buffers and in the two
  output blocks, as the body's own arithmetic (the payload terms) applied to the input blocks and to what the point
  before left.  Nothing here depends on the float instance.

  The column-minimum row (scratch 0) is the only buffer stored through a proper sub-rectangle: the tile of 1024
  columns the point works on.  Inside the tile it holds the payload at the local column, outside what it held before
  (plus infinity at the first point of a batch, where the whole row is reset first).
-/
import proofs.«128619_j46377056862526_1_alg».proof.Proof.Gen.KernelIdeal.Frame
import Idealize.ShloMosaic.Lib.Pipeline.Value
import Idealize.ShloMosaic.Lib.WritesUnit
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The tile of the column-minimum row a point reads before it updates it: the 1024 entries from the point's column offset. -/
abbrev tileOf (i : grid0.Coords) (xs0 : Vec F S1x4096 .f32) : Vec F S1x1024 .f32 :=
  View.ld xs0 (Rect.unit (k0_off1 i) S1x1024.size (k0_off1_inb i))

/-- The new row minima of the current row tile: the old ones against this tile's. -/
abbrev rowStep (x0 : Vec F S1x1024x3 .f32) (x1 : Vec F S1x3x1024 .f32) (old : Vec F S1024x1 .f32) : Vec F S1024x1 .f32 :=
  k0_pay1 (k0_pay11 x0 x1 old)

/-- One store through the whole buffer (offsets zero, however spelt) reads back as its payload. -/
theorem read_whole_store {sig : RefSig} {κ : Kind} {sp : Space} {S : Shape} {e : EltTy} {Val : EltTy → Type}
    (v : View sig κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  subst h; exact View.read_writes_whole v f w

/-! ## The first point of a batch (case A): everything is reset, then the first tile is taken in -/

theorem rowMin_A (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x4096 .f32) (harg7 : arg7.IsWhole) (arg8 : Memref sig .tc .vmem S1024x1 .f32) (harg8 : arg8.IsWhole) (arg9 : Memref sig .tc .vmem S1x1 .f32) (harg9 : arg9.IsWhole) (arg10 : Memref sig .tc .vmem S1x1 .f32) (harg10 : arg10.IsWhole) (hc0 : cond0_0 i) (hc1 : cond0_1 i) (hc2 : ¬cond0_2 i) (hc3 : ¬cond0_3 i)
    (x0 : Vec F S1x1024x3 .f32) (x1 : Vec F S1x3x1024 .f32) :
    sout0_A_1 c i arg3 harg3 arg4 harg4 arg5 harg5 arg6 harg6 arg7 harg7 arg8 harg8 arg9 harg9 arg10 harg10 hc0 hc1 hc2 hc3 x0 x1 = rowStep x0 x1 (k0_pay9 (F := F)) := by
  unfold sout0_A_1
  rw [View.read_writes_eq_canon _ _ _ (scover0_A_1 c i arg3 harg3 arg4 harg4 arg5 harg5 arg6 harg6 arg7 harg7 arg8 harg8 arg9 harg9 arg10 harg10 hc0 hc1 hc2 hc3 x0 x1)]
  unfold kernelRun0_A
  dsimp only
  sl_unfold_words
  rw [View.canon_cons_unit_zero (S := S1024x1) hz2]
  simp only [View.readAt_eq_ld, harg3.read_unread, harg4.read_unread, harg7.read_unread, harg8.read_unread, harg9.read_unread, harg10.read_unread, View.ld_unit_zero (S := S1x1024x3) hz3, View.ld_unit_zero (S := S1x3x1024) hz3, View.ld_unit_zero (S := S1024x1) hz2, View.ld_unit_zero (S := S1x1) hz2, View.ld_unit_zero (S := S1x4096) hz2, View.readCov_unit_zero (S := S1024x1) _ hz2, View.readCov_unit_zero (S := S1x1) _ hz2]

theorem doneMax_A (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x4096 .f32) (harg7 : arg7.IsWhole) (arg8 : Memref sig .tc .vmem S1024x1 .f32) (harg8 : arg8.IsWhole) (arg9 : Memref sig .tc .vmem S1x1 .f32) (harg9 : arg9.IsWhole) (arg10 : Memref sig .tc .vmem S1x1 .f32) (harg10 : arg10.IsWhole) (hc0 : cond0_0 i) (hc1 : cond0_1 i) (hc2 : ¬cond0_2 i) (hc3 : ¬cond0_3 i)
    (x0 : Vec F S1x1024x3 .f32) (x1 : Vec F S1x3x1024 .f32) :
    sout0_A_2 c i arg3 harg3 arg4 harg4 arg5 harg5 arg6 harg6 arg7 harg7 arg8 harg8 arg9 harg9 arg10 harg10 hc0 hc1 hc2 hc3 x0 x1 = k0_pay6 (F := F) := by
  unfold sout0_A_2
  rw [View.read_writes_eq_canon _ _ _ (scover0_A_2 c i arg3 harg3 arg4 harg4 arg5 harg5 arg6 harg6 arg7 harg7 arg8 harg8 arg9 harg9 arg10 harg10 hc0 hc1 hc2 hc3 x0 x1)]
  unfold kernelRun0_A
  dsimp only
  sl_unfold_words
  rw [View.canon_unit_zero (S := S1x1) hz2]

theorem spare_A (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x4096 .f32) (harg7 : arg7.IsWhole) (arg8 : Memref sig .tc .vmem S1024x1 .f32) (harg8 : arg8.IsWhole) (arg9 : Memref sig .tc .vmem S1x1 .f32) (harg9 : arg9.IsWhole) (arg10 : Memref sig .tc .vmem S1x1 .f32) (harg10 : arg10.IsWhole) (hc0 : cond0_0 i) (hc1 : cond0_1 i) (hc2 : ¬cond0_2 i) (hc3 : ¬cond0_3 i)
    (x0 : Vec F S1x1024x3 .f32) (x1 : Vec F S1x3x1024 .f32) :
    sout0_A_3 c i arg3 harg3 arg4 harg4 arg5 harg5 arg6 harg6 arg7 harg7 arg8 harg8 arg9 harg9 arg10 harg10 hc0 hc1 hc2 hc3 x0 x1 = k0_pay7 (F := F) := by
  unfold sout0_A_3
  rw [View.read_writes_eq_canon _ _ _ (scover0_A_3 c i arg3 harg3 arg4 harg4 arg5 harg5 arg6 harg6 arg7 harg7 arg8 harg8 arg9 harg9 arg10 harg10 hc0 hc1 hc2 hc3 x0 x1)]
  unfold kernelRun0_A
  dsimp only
  sl_unfold_words
  rw [View.canon_unit_zero (S := S1x1) hz2]

theorem colMin_A_in (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x4096 .f32) (harg7 : arg7.IsWhole) (arg8 : Memref sig .tc .vmem S1024x1 .f32) (harg8 : arg8.IsWhole) (arg9 : Memref sig .tc .vmem S1x1 .f32) (harg9 : arg9.IsWhole) (arg10 : Memref sig .tc .vmem S1x1 .f32) (harg10 : arg10.IsWhole) (hc0 : cond0_0 i) (hc1 : cond0_1 i) (hc2 : ¬cond0_2 i) (hc3 : ¬cond0_3 i)
    (x0 : Vec F S1x1024x3 .f32) (x1 : Vec F S1x3x1024 .f32)
    (off : Fin 2 → ℕ) (heq : k0_off1 i = off) (y : S1x4096.Idx) (q : S1x1024.Idx) (hx : ∀ a, (y a).val = off a + (q a).val) :
    sout0_A_0 c i arg3 harg3 arg4 harg4 arg5 harg5 arg6 harg6 arg7 harg7 arg8 harg8 arg9 harg9 arg10 harg10 hc0 hc1 hc2 hc3 x0 x1 y = k0_pay2 (k0_pay10 x0 x1) (tileOf i (k0_pay8 (F := F))) q := by
  unfold sout0_A_0 kernelRun0_A
  dsimp only
  sl_unfold_run_names
  refine (View.read_writes_cons_unit_of_mem _ _ _ _ _ y q heq hx).trans ?_
  simp only [View.readAt_eq_ld, harg3.read_unread, harg4.read_unread, harg7.read_unread, harg8.read_unread, harg9.read_unread, harg10.read_unread, View.ld_unit_zero (S := S1x1024x3) hz3, View.ld_unit_zero (S := S1x3x1024) hz3, View.ld_unit_zero (S := S1024x1) hz2, View.ld_unit_zero (S := S1x1) hz2, View.ld_unit_zero (S := S1x4096) hz2, View.readCov_unit_zero (S := S1024x1) _ hz2, View.readCov_unit_zero (S := S1x1) _ hz2, read_whole_store (S := S1x4096) _ _ hz2]

theorem colMin_A_out (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x4096 .f32) (harg7 : arg7.IsWhole) (arg8 : Memref sig .tc .vmem S1024x1 .f32) (harg8 : arg8.IsWhole) (arg9 : Memref sig .tc .vmem S1x1 .f32) (harg9 : arg9.IsWhole) (arg10 : Memref sig .tc .vmem S1x1 .f32) (harg10 : arg10.IsWhole) (hc0 : cond0_0 i) (hc1 : cond0_1 i) (hc2 : ¬cond0_2 i) (hc3 : ¬cond0_3 i)
    (x0 : Vec F S1x1024x3 .f32) (x1 : Vec F S1x3x1024 .f32)
    (off : Fin 2 → ℕ) (heq : k0_off1 i = off) (y : S1x4096.Idx) (a : Fin 2)
    (ha : (y a).val < off a ∨ off a + S1x1024.size a ≤ (y a).val) :
    sout0_A_0 c i arg3 harg3 arg4 harg4 arg5 harg5 arg6 harg6 arg7 harg7 arg8 harg8 arg9 harg9 arg10 harg10 hc0 hc1 hc2 hc3 x0 x1 y = k0_pay8 (F := F) y := by
  unfold sout0_A_0 kernelRun0_A
  dsimp only
  sl_unfold_run_names
  refine (View.read_writes_cons_unit_of_not_mem _ _ _ _ _ y heq a ha).trans ?_
  exact congrFun (read_whole_store (S := S1x4096) _ _ hz2 _ _) y

/-! ## A point in the middle of a row of tiles (case B) -/

theorem colMin_B_in (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x4096 .f32) (harg7 : arg7.IsWhole) (arg8 : Memref sig .tc .vmem S1024x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : ¬cond0_1 i) (hc2 : ¬cond0_2 i) (hc3 : ¬cond0_3 i)
    (x0 : Vec F S1x1024x3 .f32) (x1 : Vec F S1x3x1024 .f32) (xs0 : Vec F S1x4096 .f32) (xs1 : Vec F S1024x1 .f32) (xs2 : Vec F S1x1 .f32) (xs3 : Vec F S1x1 .f32)
    (off : Fin 2 → ℕ) (heq : k0_off1 i = off) (y : S1x4096.Idx) (q : S1x1024.Idx) (hx : ∀ a, (y a).val = off a + (q a).val) :
    sout0_B_0 c i arg3 harg3 arg4 harg4 arg5 harg5 arg6 harg6 arg7 harg7 arg8 harg8 arg9 harg9 arg10 harg10 hc0 hc1 hc2 hc3 x0 x1 xs0 xs1 xs2 xs3 y = k0_pay2 (k0_pay10 x0 x1) (tileOf i xs0) q := by
  unfold sout0_B_0 kernelRun0_B
  dsimp only
  sl_unfold_run_names
  refine (View.read_writes_cons_unit_of_mem _ _ _ _ _ y q heq hx).trans ?_
  simp only [View.readAt_eq_ld, harg3.read_unread, harg4.read_unread, harg7.read_unread, harg8.read_unread, harg9.read_unread, harg10.read_unread, View.ld_unit_zero (S := S1x1024x3) hz3, View.ld_unit_zero (S := S1x3x1024) hz3, View.ld_unit_zero (S := S1024x1) hz2, View.ld_unit_zero (S := S1x1) hz2, View.ld_unit_zero (S := S1x4096) hz2, View.readCov_unit_zero (S := S1024x1) _ hz2, View.readCov_unit_zero (S := S1x1) _ hz2]

theorem colMin_B_out (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x4096 .f32) (harg7 : arg7.IsWhole) (arg8 : Memref sig .tc .vmem S1024x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : ¬cond0_1 i) (hc2 : ¬cond0_2 i) (hc3 : ¬cond0_3 i)
    (x0 : Vec F S1x1024x3 .f32) (x1 : Vec F S1x3x1024 .f32) (xs0 : Vec F S1x4096 .f32) (xs1 : Vec F S1024x1 .f32) (xs2 : Vec F S1x1 .f32) (xs3 : Vec F S1x1 .f32)
    (off : Fin 2 → ℕ) (heq : k0_off1 i = off) (y : S1x4096.Idx) (a : Fin 2)
    (ha : (y a).val < off a ∨ off a + S1x1024.size a ≤ (y a).val) :
    sout0_B_0 c i arg3 harg3 arg4 harg4 arg5 harg5 arg6 harg6 arg7 harg7 arg8 harg8 arg9 harg9 arg10 harg10 hc0 hc1 hc2 hc3 x0 x1 xs0 xs1 xs2 xs3 y = xs0 y := by
  unfold sout0_B_0 kernelRun0_B
  dsimp only
  sl_unfold_run_names
  refine (View.read_writes_cons_unit_of_not_mem _ _ _ _ _ y heq a ha).trans ?_
  exact congrFun (harg7.read_unread xs0) y

theorem rowMin_B (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x4096 .f32) (harg7 : arg7.IsWhole) (arg8 : Memref sig .tc .vmem S1024x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : ¬cond0_1 i) (hc2 : ¬cond0_2 i) (hc3 : ¬cond0_3 i)
    (x0 : Vec F S1x1024x3 .f32) (x1 : Vec F S1x3x1024 .f32) (xs0 : Vec F S1x4096 .f32) (xs1 : Vec F S1024x1 .f32) (xs2 : Vec F S1x1 .f32) (xs3 : Vec F S1x1 .f32) :
    sout0_B_1 c i arg3 harg3 arg4 harg4 arg5 harg5 arg6 harg6 arg7 harg7 arg8 harg8 arg9 harg9 arg10 harg10 hc0 hc1 hc2 hc3 x0 x1 xs0 xs1 xs2 xs3 = rowStep x0 x1 xs1 := by
  unfold sout0_B_1
  rw [View.read_writes_eq_canon _ _ _ (scover0_B_1 c i arg3 harg3 arg4 harg4 arg5 harg5 arg6 harg6 arg7 harg7 arg8 harg8 arg9 harg9 arg10 harg10 hc0 hc1 hc2 hc3 x0 x1 xs0 xs1 xs2 xs3)]
  unfold kernelRun0_B
  dsimp only
  sl_unfold_words
  rw [View.canon_unit_zero (S := S1024x1) hz2]
  simp only [View.readAt_eq_ld, harg3.read_unread, harg4.read_unread, harg7.read_unread, harg8.read_unread, harg9.read_unread, harg10.read_unread, View.ld_unit_zero (S := S1x1024x3) hz3, View.ld_unit_zero (S := S1x3x1024) hz3, View.ld_unit_zero (S := S1024x1) hz2, View.ld_unit_zero (S := S1x1) hz2, View.ld_unit_zero (S := S1x4096) hz2, View.readCov_unit_zero (S := S1024x1) _ hz2, View.readCov_unit_zero (S := S1x1) _ hz2]

/-! ## The last tile of a row of tiles, not the last row (case C): the finished rows go into the running maximum -/

theorem colMin_C_in (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x4096 .f32) (harg7 : arg7.IsWhole) (arg8 : Memref sig .tc .vmem S1024x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : ¬cond0_1 i) (hc2 : cond0_2 i) (hc3 : ¬cond0_3 i)
    (x0 : Vec F S1x1024x3 .f32) (x1 : Vec F S1x3x1024 .f32) (xs0 : Vec F S1x4096 .f32) (xs1 : Vec F S1024x1 .f32) (xs2 : Vec F S1x1 .f32) (xs3 : Vec F S1x1 .f32)
    (off : Fin 2 → ℕ) (heq : k0_off1 i = off) (y : S1x4096.Idx) (q : S1x1024.Idx) (hx : ∀ a, (y a).val = off a + (q a).val) :
    sout0_C_0 c i arg3 harg3 arg4 harg4 arg5 harg5 arg6 harg6 arg7 harg7 arg8 harg8 arg9 harg9 arg10 harg10 hc0 hc1 hc2 hc3 x0 x1 xs0 xs1 xs2 xs3 y = k0_pay2 (k0_pay10 x0 x1) (tileOf i xs0) q := by
  unfold sout0_C_0 kernelRun0_C
  dsimp only
  sl_unfold_run_names
  refine (View.read_writes_cons_unit_of_mem _ _ _ _ _ y q heq hx).trans ?_
  simp only [View.readAt_eq_ld, harg3.read_unread, harg4.read_unread, harg7.read_unread, harg8.read_unread, harg9.read_unread, harg10.read_unread, View.ld_unit_zero (S := S1x1024x3) hz3, View.ld_unit_zero (S := S1x3x1024) hz3, View.ld_unit_zero (S := S1024x1) hz2, View.ld_unit_zero (S := S1x1) hz2, View.ld_unit_zero (S := S1x4096) hz2, View.readCov_unit_zero (S := S1024x1) _ hz2, View.readCov_unit_zero (S := S1x1) _ hz2]

theorem colMin_C_out (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x4096 .f32) (harg7 : arg7.IsWhole) (arg8 : Memref sig .tc .vmem S1024x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : ¬cond0_1 i) (hc2 : cond0_2 i) (hc3 : ¬cond0_3 i)
    (x0 : Vec F S1x1024x3 .f32) (x1 : Vec F S1x3x1024 .f32) (xs0 : Vec F S1x4096 .f32) (xs1 : Vec F S1024x1 .f32) (xs2 : Vec F S1x1 .f32) (xs3 : Vec F S1x1 .f32)
    (off : Fin 2 → ℕ) (heq : k0_off1 i = off) (y : S1x4096.Idx) (a : Fin 2)
    (ha : (y a).val < off a ∨ off a + S1x1024.size a ≤ (y a).val) :
    sout0_C_0 c i arg3 harg3 arg4 harg4 arg5 harg5 arg6 harg6 arg7 harg7 arg8 harg8 arg9 harg9 arg10 harg10 hc0 hc1 hc2 hc3 x0 x1 xs0 xs1 xs2 xs3 y = xs0 y := by
  unfold sout0_C_0 kernelRun0_C
  dsimp only
  sl_unfold_run_names
  refine (View.read_writes_cons_unit_of_not_mem _ _ _ _ _ y heq a ha).trans ?_
  exact congrFun (harg7.read_unread xs0) y

theorem rowMin_C (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x4096 .f32) (harg7 : arg7.IsWhole) (arg8 : Memref sig .tc .vmem S1024x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : ¬cond0_1 i) (hc2 : cond0_2 i) (hc3 : ¬cond0_3 i)
    (x0 : Vec F S1x1024x3 .f32) (x1 : Vec F S1x3x1024 .f32) (xs0 : Vec F S1x4096 .f32) (xs1 : Vec F S1024x1 .f32) (xs2 : Vec F S1x1 .f32) (xs3 : Vec F S1x1 .f32) :
    sout0_C_1 c i arg3 harg3 arg4 harg4 arg5 harg5 arg6 harg6 arg7 harg7 arg8 harg8 arg9 harg9 arg10 harg10 hc0 hc1 hc2 hc3 x0 x1 xs0 xs1 xs2 xs3 = rowStep x0 x1 xs1 := by
  unfold sout0_C_1
  rw [View.read_writes_eq_canon _ _ _ (scover0_C_1 c i arg3 harg3 arg4 harg4 arg5 harg5 arg6 harg6 arg7 harg7 arg8 harg8 arg9 harg9 arg10 harg10 hc0 hc1 hc2 hc3 x0 x1 xs0 xs1 xs2 xs3)]
  unfold kernelRun0_C
  dsimp only
  sl_unfold_words
  rw [View.canon_unit_zero (S := S1024x1) hz2]
  simp only [View.readAt_eq_ld, harg3.read_unread, harg4.read_unread, harg7.read_unread, harg8.read_unread, harg9.read_unread, harg10.read_unread, View.ld_unit_zero (S := S1x1024x3) hz3, View.ld_unit_zero (S := S1x3x1024) hz3, View.ld_unit_zero (S := S1024x1) hz2, View.ld_unit_zero (S := S1x1) hz2, View.ld_unit_zero (S := S1x4096) hz2, View.readCov_unit_zero (S := S1024x1) _ hz2, View.readCov_unit_zero (S := S1x1) _ hz2]

theorem doneMax_C (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x4096 .f32) (harg7 : arg7.IsWhole) (arg8 : Memref sig .tc .vmem S1024x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : ¬cond0_1 i) (hc2 : cond0_2 i) (hc3 : ¬cond0_3 i)
    (x0 : Vec F S1x1024x3 .f32) (x1 : Vec F S1x3x1024 .f32) (xs0 : Vec F S1x4096 .f32) (xs1 : Vec F S1024x1 .f32) (xs2 : Vec F S1x1 .f32) (xs3 : Vec F S1x1 .f32) :
    sout0_C_2 c i arg3 harg3 arg4 harg4 arg5 harg5 arg6 harg6 arg7 harg7 arg8 harg8 arg9 harg9 arg10 harg10 hc0 hc1 hc2 hc3 x0 x1 xs0 xs1 xs2 xs3 = k0_pay3 (rowStep x0 x1 xs1) xs2 := by
  unfold sout0_C_2
  rw [View.read_writes_eq_canon _ _ _ (scover0_C_2 c i arg3 harg3 arg4 harg4 arg5 harg5 arg6 harg6 arg7 harg7 arg8 harg8 arg9 harg9 arg10 harg10 hc0 hc1 hc2 hc3 x0 x1 xs0 xs1 xs2 xs3)]
  unfold kernelRun0_C
  dsimp only
  sl_unfold_words
  rw [View.canon_unit_zero (S := S1x1) hz2]
  simp only [View.readAt_eq_ld, harg3.read_unread, harg4.read_unread, harg7.read_unread, harg8.read_unread, harg9.read_unread, harg10.read_unread, View.ld_unit_zero (S := S1x1024x3) hz3, View.ld_unit_zero (S := S1x3x1024) hz3, View.ld_unit_zero (S := S1024x1) hz2, View.ld_unit_zero (S := S1x1) hz2, View.ld_unit_zero (S := S1x4096) hz2, View.readCov_unit_zero (S := S1024x1) _ hz2, View.readCov_unit_zero (S := S1x1) _ hz2]

/-! ## The first tile of a later row of tiles (case D): the row minima start again -/

theorem colMin_D_in (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x4096 .f32) (harg7 : arg7.IsWhole) (arg8 : Memref sig .tc .vmem S1024x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : cond0_1 i) (hc2 : ¬cond0_2 i) (hc3 : ¬cond0_3 i)
    (x0 : Vec F S1x1024x3 .f32) (x1 : Vec F S1x3x1024 .f32) (xs0 : Vec F S1x4096 .f32) (xs2 : Vec F S1x1 .f32) (xs3 : Vec F S1x1 .f32)
    (off : Fin 2 → ℕ) (heq : k0_off1 i = off) (y : S1x4096.Idx) (q : S1x1024.Idx) (hx : ∀ a, (y a).val = off a + (q a).val) :
    sout0_D_0 c i arg3 harg3 arg4 harg4 arg5 harg5 arg6 harg6 arg7 harg7 arg8 harg8 arg9 harg9 arg10 harg10 hc0 hc1 hc2 hc3 x0 x1 xs0 xs2 xs3 y = k0_pay2 (k0_pay10 x0 x1) (tileOf i xs0) q := by
  unfold sout0_D_0 kernelRun0_D
  dsimp only
  sl_unfold_run_names
  refine (View.read_writes_cons_unit_of_mem _ _ _ _ _ y q heq hx).trans ?_
  simp only [View.readAt_eq_ld, harg3.read_unread, harg4.read_unread, harg7.read_unread, harg8.read_unread, harg9.read_unread, harg10.read_unread, View.ld_unit_zero (S := S1x1024x3) hz3, View.ld_unit_zero (S := S1x3x1024) hz3, View.ld_unit_zero (S := S1024x1) hz2, View.ld_unit_zero (S := S1x1) hz2, View.ld_unit_zero (S := S1x4096) hz2, View.readCov_unit_zero (S := S1024x1) _ hz2, View.readCov_unit_zero (S := S1x1) _ hz2]

theorem colMin_D_out (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x4096 .f32) (harg7 : arg7.IsWhole) (arg8 : Memref sig .tc .vmem S1024x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : cond0_1 i) (hc2 : ¬cond0_2 i) (hc3 : ¬cond0_3 i)
    (x0 : Vec F S1x1024x3 .f32) (x1 : Vec F S1x3x1024 .f32) (xs0 : Vec F S1x4096 .f32) (xs2 : Vec F S1x1 .f32) (xs3 : Vec F S1x1 .f32)
    (off : Fin 2 → ℕ) (heq : k0_off1 i = off) (y : S1x4096.Idx) (a : Fin 2)
    (ha : (y a).val < off a ∨ off a + S1x1024.size a ≤ (y a).val) :
    sout0_D_0 c i arg3 harg3 arg4 harg4 arg5 harg5 arg6 harg6 arg7 harg7 arg8 harg8 arg9 harg9 arg10 harg10 hc0 hc1 hc2 hc3 x0 x1 xs0 xs2 xs3 y = xs0 y := by
  unfold sout0_D_0 kernelRun0_D
  dsimp only
  sl_unfold_run_names
  refine (View.read_writes_cons_unit_of_not_mem _ _ _ _ _ y heq a ha).trans ?_
  exact congrFun (harg7.read_unread xs0) y

theorem rowMin_D (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x4096 .f32) (harg7 : arg7.IsWhole) (arg8 : Memref sig .tc .vmem S1024x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : cond0_1 i) (hc2 : ¬cond0_2 i) (hc3 : ¬cond0_3 i)
    (x0 : Vec F S1x1024x3 .f32) (x1 : Vec F S1x3x1024 .f32) (xs0 : Vec F S1x4096 .f32) (xs2 : Vec F S1x1 .f32) (xs3 : Vec F S1x1 .f32) :
    sout0_D_1 c i arg3 harg3 arg4 harg4 arg5 harg5 arg6 harg6 arg7 harg7 arg8 harg8 arg9 harg9 arg10 harg10 hc0 hc1 hc2 hc3 x0 x1 xs0 xs2 xs3 = rowStep x0 x1 (k0_pay9 (F := F)) := by
  unfold sout0_D_1
  rw [View.read_writes_eq_canon _ _ _ (scover0_D_1 c i arg3 harg3 arg4 harg4 arg5 harg5 arg6 harg6 arg7 harg7 arg8 harg8 arg9 harg9 arg10 harg10 hc0 hc1 hc2 hc3 x0 x1 xs0 xs2 xs3)]
  unfold kernelRun0_D
  dsimp only
  sl_unfold_words
  rw [View.canon_cons_unit_zero (S := S1024x1) hz2]
  simp only [View.readAt_eq_ld, harg3.read_unread, harg4.read_unread, harg7.read_unread, harg8.read_unread, harg9.read_unread, harg10.read_unread, View.ld_unit_zero (S := S1x1024x3) hz3, View.ld_unit_zero (S := S1x3x1024) hz3, View.ld_unit_zero (S := S1024x1) hz2, View.ld_unit_zero (S := S1x1) hz2, View.ld_unit_zero (S := S1x4096) hz2, View.readCov_unit_zero (S := S1024x1) _ hz2, View.readCov_unit_zero (S := S1x1) _ hz2]

/-! ## The last point of a batch (case E): as case C, and the two results are written out -/

theorem colMin_E_in (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x4096 .f32) (harg7 : arg7.IsWhole) (arg8 : Memref sig .tc .vmem S1024x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : ¬cond0_1 i) (hc2 : cond0_2 i) (hc3 : cond0_3 i)
    (x0 : Vec F S1x1024x3 .f32) (x1 : Vec F S1x3x1024 .f32) (xs0 : Vec F S1x4096 .f32) (xs1 : Vec F S1024x1 .f32) (xs2 : Vec F S1x1 .f32) (xs3 : Vec F S1x1 .f32)
    (off : Fin 2 → ℕ) (heq : k0_off1 i = off) (y : S1x4096.Idx) (q : S1x1024.Idx) (hx : ∀ a, (y a).val = off a + (q a).val) :
    sout0_E_0 c i arg3 harg3 arg4 harg4 arg5 harg5 arg6 harg6 arg7 harg7 arg8 harg8 arg9 harg9 arg10 harg10 hc0 hc1 hc2 hc3 x0 x1 xs0 xs1 xs2 xs3 y = k0_pay2 (k0_pay10 x0 x1) (tileOf i xs0) q := by
  unfold sout0_E_0 kernelRun0_E
  dsimp only
  sl_unfold_run_names
  refine (View.read_writes_cons_unit_of_mem _ _ _ _ _ y q heq hx).trans ?_
  simp only [View.readAt_eq_ld, harg3.read_unread, harg4.read_unread, harg7.read_unread, harg8.read_unread, harg9.read_unread, harg10.read_unread, View.ld_unit_zero (S := S1x1024x3) hz3, View.ld_unit_zero (S := S1x3x1024) hz3, View.ld_unit_zero (S := S1024x1) hz2, View.ld_unit_zero (S := S1x1) hz2, View.ld_unit_zero (S := S1x4096) hz2, View.readCov_unit_zero (S := S1024x1) _ hz2, View.readCov_unit_zero (S := S1x1) _ hz2]

theorem colMin_E_out (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x4096 .f32) (harg7 : arg7.IsWhole) (arg8 : Memref sig .tc .vmem S1024x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : ¬cond0_1 i) (hc2 : cond0_2 i) (hc3 : cond0_3 i)
    (x0 : Vec F S1x1024x3 .f32) (x1 : Vec F S1x3x1024 .f32) (xs0 : Vec F S1x4096 .f32) (xs1 : Vec F S1024x1 .f32) (xs2 : Vec F S1x1 .f32) (xs3 : Vec F S1x1 .f32)
    (off : Fin 2 → ℕ) (heq : k0_off1 i = off) (y : S1x4096.Idx) (a : Fin 2)
    (ha : (y a).val < off a ∨ off a + S1x1024.size a ≤ (y a).val) :
    sout0_E_0 c i arg3 harg3 arg4 harg4 arg5 harg5 arg6 harg6 arg7 harg7 arg8 harg8 arg9 harg9 arg10 harg10 hc0 hc1 hc2 hc3 x0 x1 xs0 xs1 xs2 xs3 y = xs0 y := by
  unfold sout0_E_0 kernelRun0_E
  dsimp only
  sl_unfold_run_names
  refine (View.read_writes_cons_unit_of_not_mem _ _ _ _ _ y heq a ha).trans ?_
  exact congrFun (harg7.read_unread xs0) y

theorem rowMin_E (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x4096 .f32) (harg7 : arg7.IsWhole) (arg8 : Memref sig .tc .vmem S1024x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : ¬cond0_1 i) (hc2 : cond0_2 i) (hc3 : cond0_3 i)
    (x0 : Vec F S1x1024x3 .f32) (x1 : Vec F S1x3x1024 .f32) (xs0 : Vec F S1x4096 .f32) (xs1 : Vec F S1024x1 .f32) (xs2 : Vec F S1x1 .f32) (xs3 : Vec F S1x1 .f32) :
    sout0_E_1 c i arg3 harg3 arg4 harg4 arg5 harg5 arg6 harg6 arg7 harg7 arg8 harg8 arg9 harg9 arg10 harg10 hc0 hc1 hc2 hc3 x0 x1 xs0 xs1 xs2 xs3 = rowStep x0 x1 xs1 := by
  unfold sout0_E_1
  rw [View.read_writes_eq_canon _ _ _ (scover0_E_1 c i arg3 harg3 arg4 harg4 arg5 harg5 arg6 harg6 arg7 harg7 arg8 harg8 arg9 harg9 arg10 harg10 hc0 hc1 hc2 hc3 x0 x1 xs0 xs1 xs2 xs3)]
  unfold kernelRun0_E
  dsimp only
  sl_unfold_words
  rw [View.canon_unit_zero (S := S1024x1) hz2]
  simp only [View.readAt_eq_ld, harg3.read_unread, harg4.read_unread, harg7.read_unread, harg8.read_unread, harg9.read_unread, harg10.read_unread, View.ld_unit_zero (S := S1x1024x3) hz3, View.ld_unit_zero (S := S1x3x1024) hz3, View.ld_unit_zero (S := S1024x1) hz2, View.ld_unit_zero (S := S1x1) hz2, View.ld_unit_zero (S := S1x4096) hz2, View.readCov_unit_zero (S := S1024x1) _ hz2, View.readCov_unit_zero (S := S1x1) _ hz2]

theorem doneMax_E (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x4096 .f32) (harg7 : arg7.IsWhole) (arg8 : Memref sig .tc .vmem S1024x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : ¬cond0_1 i) (hc2 : cond0_2 i) (hc3 : cond0_3 i)
    (x0 : Vec F S1x1024x3 .f32) (x1 : Vec F S1x3x1024 .f32) (xs0 : Vec F S1x4096 .f32) (xs1 : Vec F S1024x1 .f32) (xs2 : Vec F S1x1 .f32) (xs3 : Vec F S1x1 .f32) :
    sout0_E_2 c i arg3 harg3 arg4 harg4 arg5 harg5 arg6 harg6 arg7 harg7 arg8 harg8 arg9 harg9 arg10 harg10 hc0 hc1 hc2 hc3 x0 x1 xs0 xs1 xs2 xs3 = k0_pay3 (rowStep x0 x1 xs1) xs2 := by
  unfold sout0_E_2
  rw [View.read_writes_eq_canon _ _ _ (scover0_E_2 c i arg3 harg3 arg4 harg4 arg5 harg5 arg6 harg6 arg7 harg7 arg8 harg8 arg9 harg9 arg10 harg10 hc0 hc1 hc2 hc3 x0 x1 xs0 xs1 xs2 xs3)]
  unfold kernelRun0_E
  dsimp only
  sl_unfold_words
  rw [View.canon_unit_zero (S := S1x1) hz2]
  simp only [View.readAt_eq_ld, harg3.read_unread, harg4.read_unread, harg7.read_unread, harg8.read_unread, harg9.read_unread, harg10.read_unread, View.ld_unit_zero (S := S1x1024x3) hz3, View.ld_unit_zero (S := S1x3x1024) hz3, View.ld_unit_zero (S := S1024x1) hz2, View.ld_unit_zero (S := S1x1) hz2, View.ld_unit_zero (S := S1x4096) hz2, View.readCov_unit_zero (S := S1024x1) _ hz2, View.readCov_unit_zero (S := S1x1) _ hz2]

theorem outXY_E (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x4096 .f32) (harg7 : arg7.IsWhole) (arg8 : Memref sig .tc .vmem S1024x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : ¬cond0_1 i) (hc2 : cond0_2 i) (hc3 : cond0_3 i)
    (x0 : Vec F S1x1024x3 .f32) (x1 : Vec F S1x3x1024 .f32) (xs0 : Vec F S1x4096 .f32) (xs1 : Vec F S1024x1 .f32) (xs2 : Vec F S1x1 .f32) (xs3 : Vec F S1x1 .f32) :
    out0_E_2 c i arg3 harg3 arg4 harg4 arg5 harg5 arg6 harg6 arg7 harg7 arg8 harg8 arg9 harg9 arg10 harg10 hc0 hc1 hc2 hc3 x0 x1 xs0 xs1 xs2 xs3 = k0_pay4 (k0_pay3 (rowStep x0 x1 xs1) xs2) := by
  unfold out0_E_2
  rw [View.read_writes_eq_canon _ _ _ (cover0_E_2 c i arg3 harg3 arg4 harg4 arg5 harg5 arg6 harg6 arg7 harg7 arg8 harg8 arg9 harg9 arg10 harg10 hc0 hc1 hc2 hc3 x0 x1 xs0 xs1 xs2 xs3)]
  unfold kernelRun0_E
  dsimp only
  sl_unfold_words
  rw [View.canon_unit_zero (S := S1x1x128) hz3]
  simp only [View.readAt_eq_ld, harg3.read_unread, harg4.read_unread, harg7.read_unread, harg8.read_unread, harg9.read_unread, harg10.read_unread, View.ld_unit_zero (S := S1x1024x3) hz3, View.ld_unit_zero (S := S1x3x1024) hz3, View.ld_unit_zero (S := S1024x1) hz2, View.ld_unit_zero (S := S1x1) hz2, View.ld_unit_zero (S := S1x4096) hz2, View.readCov_unit_zero (S := S1024x1) _ hz2, View.readCov_unit_zero (S := S1x1) _ hz2]

theorem outYX_E (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x4096 .f32) (harg7 : arg7.IsWhole) (arg8 : Memref sig .tc .vmem S1024x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : ¬cond0_1 i) (hc2 : cond0_2 i) (hc3 : cond0_3 i)
    (x0 : Vec F S1x1024x3 .f32) (x1 : Vec F S1x3x1024 .f32) (xs0 : Vec F S1x4096 .f32) (xs1 : Vec F S1024x1 .f32) (xs2 : Vec F S1x1 .f32) (xs3 : Vec F S1x1 .f32) :
    out0_E_3 c i arg3 harg3 arg4 harg4 arg5 harg5 arg6 harg6 arg7 harg7 arg8 harg8 arg9 harg9 arg10 harg10 hc0 hc1 hc2 hc3 x0 x1 xs0 xs1 xs2 xs3 = k0_pay5 (sout0_E_0 c i arg3 harg3 arg4 harg4 arg5 harg5 arg6 harg6 arg7 harg7 arg8 harg8 arg9 harg9 arg10 harg10 hc0 hc1 hc2 hc3 x0 x1 xs0 xs1 xs2 xs3) xs3 := by
  unfold out0_E_3
  rw [View.read_writes_eq_canon _ _ _ (cover0_E_3 c i arg3 harg3 arg4 harg4 arg5 harg5 arg6 harg6 arg7 harg7 arg8 harg8 arg9 harg9 arg10 harg10 hc0 hc1 hc2 hc3 x0 x1 xs0 xs1 xs2 xs3)]
  unfold sout0_E_0 kernelRun0_E
  dsimp only
  sl_unfold_words
  rw [View.canon_unit_zero (S := S1x1x128) hz3]
  simp only [View.readAt_eq_ld, harg3.read_unread, harg4.read_unread, harg7.read_unread, harg8.read_unread, harg9.read_unread, harg10.read_unread, View.ld_unit_zero (S := S1x1024x3) hz3, View.ld_unit_zero (S := S1x3x1024) hz3, View.ld_unit_zero (S := S1024x1) hz2, View.ld_unit_zero (S := S1x1) hz2, View.ld_unit_zero (S := S1x4096) hz2, View.readCov_unit_zero (S := S1024x1) _ hz2, View.readCov_unit_zero (S := S1x1) _ hz2]

end Cert.KernelIdeal.Pieces

end
-- ==== Proof.Spec.lean ====
/-
  The mathematics of the directed Hausdorff terms, over the extended reals, with no program in sight.

  For one batch the squared-distance table is a function D n m of a row n (a predicted point) and a column m
  (a label point), both in Fin 4096.  The two numbers wanted are

      sup over n of (inf over m of D n m)      and      sup over m of (inf over n of D n m).

  A tiled evaluation cuts both axes into four tiles of 1024 and visits the sixteen tiles row tile by row tile; tile
  number s is (row tile s / 4, column tile s % 4).  While it goes it keeps
    * colMin: for every column the least entry seen so far in that column,
    * rowMin: for every row of the current row tile the least entry seen so far in that row,
    * doneMax: the greatest complete row minimum of the row tiles already finished.
  This file states those three as closed forms (infima and suprema over the tiles seen so far), proves the one-tile
  update equations they satisfy, and shows that after the last tile they are the two numbers above.
-/
import Idealize.ShloMosaic.PureOps.Ideal.Laws
import Idealize.ShloMosaic.Lib.ValueIdx

noncomputable section

namespace Cert.Hausdorff

open Idealize.ShloMosaic

/-! ## Folds of min and max are infima and suprema -/

theorem fold_min_univ {ι : Type} [Fintype ι] (b : EReal) (f : ι → EReal) :
    (Finset.univ : Finset ι).fold min b f = min b (⨅ k, f k) := by
  refine eq_of_forall_le_iff fun c => ?_
  simp only [Finset.le_fold_min, le_min_iff, le_iInf_iff, Finset.mem_univ, true_implies]

theorem fold_max_univ {ι : Type} [Fintype ι] (b : EReal) (f : ι → EReal) :
    (Finset.univ : Finset ι).fold max b f = max b (⨆ k, f k) := by
  refine eq_of_forall_ge_iff fun c => ?_
  simp only [Finset.fold_max_le, max_le_iff, iSup_le_iff, Finset.mem_univ, true_implies]

theorem fold_min_filter {ι : Type} [Fintype ι] (p : ι → Prop) [DecidablePred p] (b : EReal) (f : ι → EReal) :
    (Finset.univ.filter p).fold min b f = min b (⨅ (k : ι) (_ : p k), f k) := by
  refine eq_of_forall_le_iff fun c => ?_
  simp only [Finset.le_fold_min, le_min_iff, le_iInf_iff, Finset.mem_filter, Finset.mem_univ, true_and]

theorem fold_max_filter {ι : Type} [Fintype ι] (p : ι → Prop) [DecidablePred p] (b : EReal) (f : ι → EReal) :
    (Finset.univ.filter p).fold max b f = max b (⨆ (k : ι) (_ : p k), f k) := by
  refine eq_of_forall_ge_iff fun c => ?_
  simp only [Finset.fold_max_le, max_le_iff, iSup_le_iff, Finset.mem_filter, Finset.mem_univ, true_and]

/-- The f32 pattern of plus infinity is the top of the extended reals, -/
theorem ofBits_pinf : Ideal.ofBits .f32 0x7F800000#32 = (⊤ : EReal) := by simp [Ideal.ofBits, Ideal.ieee]
/-- and that of minus infinity the bottom. -/
theorem ofBits_ninf : Ideal.ofBits .f32 0xFF800000#32 = (⊥ : EReal) := by simp [Ideal.ofBits, Ideal.ieee]

/-! ## Position r of tile i on an axis of 4096 -/

/-- Entry 1024 * i + r of an axis of length 4096 cut into four tiles of 1024. -/
def at4 (i : Fin 4) (r : Fin 1024) : Fin 4096 :=
  ⟨1024 * i.val + r.val, by have := i.isLt; have := r.isLt; omega⟩

@[simp] theorem at4_val (i : Fin 4) (r : Fin 1024) : (at4 i r).val = 1024 * i.val + r.val := rfl

theorem at4_div (i : Fin 4) (r : Fin 1024) : (at4 i r).val / 1024 = i.val := by
  have := r.isLt; rw [at4_val]; omega

theorem exists_at4 (n : Fin 4096) : ∃ (i : Fin 4) (r : Fin 1024), n = at4 i r :=
  ⟨⟨n.val / 1024, by have := n.isLt; omega⟩, ⟨n.val % 1024, Nat.mod_lt _ (by decide)⟩,
    Fin.ext (by rw [at4_val]; show n.val = 1024 * (n.val / 1024) + n.val % 1024; omega)⟩

theorem iInf_at4 (f : Fin 4096 → EReal) : (⨅ n, f n) = ⨅ (i : Fin 4) (r : Fin 1024), f (at4 i r) := by
  refine le_antisymm (le_iInf fun i => le_iInf fun r => iInf_le _ _) (le_iInf fun n => ?_)
  obtain ⟨i, r, rfl⟩ := exists_at4 n
  exact iInf_le_of_le i (iInf_le _ r)

theorem iSup_at4 (f : Fin 4096 → EReal) : (⨆ n, f n) = ⨆ (i : Fin 4) (r : Fin 1024), f (at4 i r) := by
  refine le_antisymm (iSup_le fun n => ?_) (iSup_le fun i => iSup_le fun r => le_iSup _ _)
  obtain ⟨i, r, rfl⟩ := exists_at4 n
  exact le_iSup_of_le i (le_iSup (fun r => f (at4 i r)) r)

/-! ## What a tiled evaluation holds after tile s -/

variable (D : Fin 4096 → Fin 4096 → EReal)

/-- The least entry of column q among the tiles 0 … s: row tile i has met column tile q / 1024 once
    4 i + q / 1024 ≤ s. -/
def colMin (s : ℕ) (q : Fin 4096) : EReal :=
  ⨅ (i : Fin 4) (_ : 4 * i.val + q.val / 1024 ≤ s) (r : Fin 1024), D (at4 i r) q

/-- The least entry of row r of row tile i among the column tiles 0 … s % 4. -/
def rowMin (s : ℕ) (i : Fin 4) (r : Fin 1024) : EReal :=
  ⨅ (j : Fin 4) (_ : j.val ≤ s % 4) (q : Fin 1024), D (at4 i r) (at4 j q)

/-- The greatest whole-row minimum over the row tiles finished by tile s (row tile i is finished at tile 4 i + 3). -/
def doneMax (s : ℕ) : EReal :=
  ⨆ (i : Fin 4) (_ : 4 * i.val + 3 ≤ s) (r : Fin 1024), ⨅ m, D (at4 i r) m

/-! ### Column minima -/

theorem colMin_zero_in (q : Fin 1024) : colMin D 0 (at4 0 q) = ⨅ r, D (at4 0 r) (at4 0 q) := by
  unfold colMin
  refine eq_of_forall_le_iff fun c => ?_
  simp only [le_iInf_iff, at4_div]
  constructor
  · intro h r; exact h 0 (by simp) r
  · intro h i hi r
    obtain rfl : i = 0 := Fin.ext (by simp at hi; omega)
    exact h r

theorem colMin_zero_out (q : Fin 4096) (h : q.val / 1024 ≠ 0) : colMin D 0 q = ⊤ := by
  unfold colMin
  refine eq_top_iff.mpr (le_iInf fun i => le_iInf fun hi => ?_)
  exfalso; omega

theorem colMin_succ_in (s : ℕ) (i j : Fin 4) (hi : i.val = (s + 1) / 4) (hj : j.val = (s + 1) % 4) (q : Fin 1024) :
    colMin D (s + 1) (at4 j q) = min (colMin D s (at4 j q)) (⨅ r, D (at4 i r) (at4 j q)) := by
  unfold colMin
  refine eq_of_forall_le_iff fun c => ?_
  simp only [le_iInf_iff, le_min_iff, at4_div]
  constructor
  · intro h
    exact ⟨fun i' hi' r => h i' (by omega) r, fun r => h i (by omega) r⟩
  · rintro ⟨h1, h2⟩ i' hi' r
    by_cases e : i' = i
    · subst e; exact h2 r
    · have : i'.val ≠ i.val := fun h => e (Fin.ext h)
      exact h1 i' (by omega) r

theorem colMin_succ_out (s : ℕ) (q : Fin 4096) (h : q.val / 1024 ≠ (s + 1) % 4) : colMin D (s + 1) q = colMin D s q := by
  unfold colMin
  have hq : q.val / 1024 < 4 := by have := q.isLt; omega
  refine eq_of_forall_le_iff fun c => ?_
  simp only [le_iInf_iff]
  constructor
  · intro h1 i hi r; exact h1 i (by omega) r
  · intro h1 i hi r; exact h1 i (by omega) r

/-! ### Row minima of the current row tile -/

theorem rowMin_reset (s : ℕ) (h : s % 4 = 0) (i : Fin 4) (r : Fin 1024) :
    rowMin D s i r = ⨅ q, D (at4 i r) (at4 0 q) := by
  unfold rowMin
  refine eq_of_forall_le_iff fun c => ?_
  simp only [le_iInf_iff, h]
  constructor
  · intro h1 q; exact h1 0 (by simp) q
  · intro h1 j hj q
    obtain rfl : j = 0 := Fin.ext (by simp at hj; omega)
    exact h1 q

theorem rowMin_succ (s : ℕ) (h : (s + 1) % 4 ≠ 0) (i j : Fin 4) (hj : j.val = (s + 1) % 4) (r : Fin 1024) :
    rowMin D (s + 1) i r = min (rowMin D s i r) (⨅ q, D (at4 i r) (at4 j q)) := by
  unfold rowMin
  refine eq_of_forall_le_iff fun c => ?_
  simp only [le_iInf_iff, le_min_iff]
  constructor
  · intro h1
    exact ⟨fun j' hj' q => h1 j' (by omega) q, fun q => h1 j (by omega) q⟩
  · rintro ⟨h1, h2⟩ j' hj' q
    by_cases e : j' = j
    · subst e; exact h2 q
    · have : j'.val ≠ j.val := fun h => e (Fin.ext h)
      exact h1 j' (by omega) q

theorem rowMin_full (s : ℕ) (h : s % 4 = 3) (i : Fin 4) (r : Fin 1024) :
    rowMin D s i r = ⨅ m, D (at4 i r) m := by
  unfold rowMin
  rw [iInf_at4]
  refine eq_of_forall_le_iff fun c => ?_
  simp only [le_iInf_iff, h]
  constructor
  · intro h1 j q; exact h1 j (by have := j.isLt; omega) q
  · intro h1 j _ q; exact h1 j q

/-! ### The maximum over the finished row tiles -/

theorem doneMax_of_lt (s : ℕ) (h : s < 3) : doneMax D s = ⊥ := by
  unfold doneMax
  refine eq_bot_iff.mpr (iSup_le fun i => iSup_le fun hi => ?_)
  exfalso; omega

theorem doneMax_succ_keep (s : ℕ) (h : (s + 1) % 4 ≠ 3) : doneMax D (s + 1) = doneMax D s := by
  unfold doneMax
  refine eq_of_forall_ge_iff fun c => ?_
  simp only [iSup_le_iff]
  constructor
  · intro h1 i hi r; exact h1 i (by omega) r
  · intro h1 i hi r; exact h1 i (by omega) r

theorem doneMax_succ_add (s : ℕ) (h : (s + 1) % 4 = 3) (i : Fin 4) (hi : i.val = (s + 1) / 4) :
    doneMax D (s + 1) = max (doneMax D s) (⨆ r, rowMin D (s + 1) i r) := by
  unfold doneMax
  refine eq_of_forall_ge_iff fun c => ?_
  simp only [iSup_le_iff, max_le_iff, rowMin_full D (s + 1) h]
  constructor
  · intro h1
    exact ⟨fun i' hi' r => h1 i' (by omega) r, fun r => h1 i (by omega) r⟩
  · rintro ⟨h1, h2⟩ i' hi' r
    by_cases e : i' = i
    · subst e; exact h2 r
    · have : i'.val ≠ i.val := fun h => e (Fin.ext h)
      exact h1 i' (by omega) r

/-! ### After the last tile -/

theorem doneMax_last : doneMax D 15 = ⨆ n, ⨅ m, D n m := by
  unfold doneMax
  rw [iSup_at4]
  refine eq_of_forall_ge_iff fun c => ?_
  simp only [iSup_le_iff]
  constructor
  · intro h1 i r; exact h1 i (by have := i.isLt; omega) r
  · intro h1 i _ r; exact h1 i r

theorem colMin_last (q : Fin 4096) : colMin D 15 q = ⨅ n, D n q := by
  unfold colMin
  rw [iInf_at4]
  have hq : q.val / 1024 < 4 := by have := q.isLt; omega
  refine eq_of_forall_le_iff fun c => ?_
  simp only [le_iInf_iff]
  constructor
  · intro h1 i r; exact h1 i (by have := i.isLt; omega) r
  · intro h1 i _ r; exact h1 i r

/-! ## The distance table of two clouds of points, and the number wanted -/

/-- The distance of the points (p0, p1, p2) and (l0, l1, l2): the squared coordinate differences added one after the
    other to the f32 zero, then the root.  (Both programs form exactly this; the order of a three-term sum does not
    matter over the extended reals.) -/
def dist (p0 p1 p2 l0 l1 l2 : EReal) : EReal :=
  Ideal.sqrt (((Ideal.ofBits .f32 0x00000000#32 + (p0 - l0) * (p0 - l0)) + (p1 - l1) * (p1 - l1)) + (p2 - l2) * (p2 - l2))

/-- The same with the three squares written as a sum over the coordinate. -/
theorem dist_eq_sum (p l : Fin 3 → EReal) :
    dist (p 0) (p 1) (p 2) (l 0) (l 1) (l 2)
      = Ideal.sqrt (Ideal.ofBits .f32 0x00000000#32 + ∑ k : Fin 3, (p k - l k) * (p k - l k)) := by
  unfold dist
  rw [Fin.sum_univ_three, add_assoc, add_assoc, ← add_assoc ((p 0 - l 0) * (p 0 - l 0))]

open Idealize.ShloMosaic.ValueIdx in
/-- Entry (n, m) of batch b's distance table: point n of the first cloud against point m of the second. -/
def table (X Y : (⟨3, ![4, 4096, 3]⟩ : Shape).Idx → EReal) (b : Fin 4) (n m : Fin 4096) : EReal :=
  dist (X (ix3 b n (0 : Fin 3))) (X (ix3 b n (1 : Fin 3))) (X (ix3 b n (2 : Fin 3)))
    (Y (ix3 b m (0 : Fin 3))) (Y (ix3 b m (1 : Fin 3))) (Y (ix3 b m (2 : Fin 3)))

/-- The sum of the two directed terms, each the greatest, over every batch, of the nearest-neighbour distances. -/
def hausdorff (X Y : (⟨3, ![4, 4096, 3]⟩ : Shape).Idx → EReal) : EReal :=
  (⨆ (b : Fin 4) (n : Fin 4096), ⨅ m, table X Y b n m) + (⨆ (b : Fin 4) (m : Fin 4096), ⨅ n, table X Y b n m)

end Cert.Hausdorff

end
-- ==== Proof.TileValue.lean ====
/-
  The kernel body's arithmetic read at an index, over the extended reals: each payload of the body as the minimum,
  maximum or distance it is.
-/
import proofs.«128619_j46377056862526_1_alg».proof.Proof.Gen.KernelIdeal.Skeleton
import proofs.«128619_j46377056862526_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Tile

open Cert.KernelIdeal Cert.KernelIdeal.Gen Cert.Hausdorff

/-! ## Layout operations in the column forms this body meets -/

section Layout
variable {α : Type}

/-- A vector cast to a column reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast over many columns reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-element block broadcast along a third axis reads its one element everywhere. -/
theorem broadcastTo_111_11c_apply {c : ℕ} (v : (⟨3, ![1, 1, 1]⟩ : Shape).Idx → α)
    (h : (⟨3, ![1, 1, 1]⟩ : Shape).Broadcasts ⟨3, ![1, 1, c]⟩) (y : (⟨3, ![1, 1, c]⟩ : Shape).Idx) :
    broadcastTo ⟨3, ![1, 1, c]⟩ v h y = v (ix3 (0 : Fin 1) (0 : Fin 1) (0 : Fin 1)) := by
  refine broadcastTo_apply v h y (ix3 (0 : Fin 1) (0 : Fin 1) (0 : Fin 1)) fun ax => ?_
  match ax with
  | ⟨0, _⟩ => rfl
  | ⟨1, _⟩ => rfl
  | ⟨2, _⟩ => rfl

end Layout

/-! ## A minimum or maximum along one axis, read at an index -/

/-- Over the extended reals a minimum reduction along one axis is the fold of min from the accumulator's value over that
    axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The least entry of row r of a 1024 × 1024 table. -/
theorem rowMin_apply (v : FVec Ideal S1024x1024 .f32) (r : Fin 1024) :
    multiReduction (F := Ideal) .minimumf [1] S1024 v 0x7F800000#32 reduces_S1024x1024_S1024 (.inl rfl) rfl (ix1 r)
      = ⨅ q : Fin 1024, v (ix2 r q) := by
  refine (multiReduction_minimumf_single v _ reduces_S1024x1024_S1024 _ _ (ix1 r)).trans ?_
  refine (fold_min_univ _ _).trans ?_
  refine (congrArg (fun b => min b _) ofBits_pinf).trans ?_
  refine (min_top_left _).trans ?_
  refine iInf_congr fun q => congrArg v (funext fun c => ?_)
  match c with
  | ⟨0, _⟩ => exact Fin.ext rfl
  | ⟨1, _⟩ => exact Fin.ext rfl

/-- The least entry of column q of a 1024 × 1024 table. -/
theorem colMin_apply (v : FVec Ideal S1024x1024 .f32) (q : Fin 1024) :
    multiReduction (F := Ideal) .minimumf [0] S1024 v 0x7F800000#32 reduces_S1024x1024_S1024_2 (.inl rfl) rfl (ix1 q)
      = ⨅ r : Fin 1024, v (ix2 r q) := by
  refine (multiReduction_minimumf_single v _ reduces_S1024x1024_S1024_2 _ _ (ix1 q)).trans ?_
  refine (fold_min_univ _ _).trans ?_
  refine (congrArg (fun b => min b _) ofBits_pinf).trans ?_
  refine (min_top_left _).trans ?_
  refine iInf_congr fun r => congrArg v (funext fun c => ?_)
  match c with
  | ⟨0, _⟩ => exact Fin.ext rfl
  | ⟨1, _⟩ => exact Fin.ext rfl

/-- The greatest entry of a column of 1024 numbers. -/
theorem colMax_apply (v : FVec Ideal S1024x1 .f32) (u : Fin 1) :
    multiReduction (F := Ideal) .maximumf [0] S1 v 0xFF800000#32 reduces_S1024x1_S1 (.inl rfl) rfl (ix1 u)
      = ⨆ r : Fin 1024, v (ix2 r (0 : Fin 1)) := by
  refine (Ideal.multiReduction_maximumf_single v _ reduces_S1024x1_S1 _ _ (ix1 u)).trans ?_
  refine (fold_max_univ _ _).trans ?_
  refine (congrArg (fun b => max b _) ofBits_ninf).trans ?_
  refine (max_bot_left _).trans ?_
  refine iSup_congr fun r => congrArg v (funext fun c => ?_)
  match c with
  | ⟨0, _⟩ => exact Fin.ext rfl
  | ⟨1, _⟩ => exact Fin.ext (by show u.val = 0; omega)

/-- The greatest entry of a row of 4096 numbers. -/
theorem rowMax_apply (v : FVec Ideal S1x4096 .f32) (u : Fin 1) :
    multiReduction (F := Ideal) .maximumf [1] S1 v 0xFF800000#32 reduces_S1x4096_S1 (.inl rfl) rfl (ix1 u)
      = ⨆ q : Fin 4096, v (ix2 (0 : Fin 1) q) := by
  refine (Ideal.multiReduction_maximumf_single v _ reduces_S1x4096_S1 _ _ (ix1 u)).trans ?_
  refine (fold_max_univ _ _).trans ?_
  refine (congrArg (fun b => max b _) ofBits_ninf).trans ?_
  refine (max_bot_left _).trans ?_
  refine iSup_congr fun q => congrArg v (funext fun c => ?_)
  match c with
  | ⟨0, _⟩ => exact Fin.ext (by show u.val = 0; omega)
  | ⟨1, _⟩ => exact Fin.ext rfl

/-- A square root taken elementwise, read at an index. -/
theorem sqrt_apply {s : Shape} {φ : FTy} (a : FVec Ideal s φ) (i : s.Idx) : sqrt a i = Ideal.sqrt (a i) := rfl

/-- Entry (r, q) of a tile's distance table: row r of the block of the first cloud against column q of the block of
    the second (which arrives transposed: coordinate, then point). -/
theorem pay10_apply (x0 : Vec Ideal S1x1024x3 .f32) (x1 : Vec Ideal S1x3x1024 .f32) (r q : Fin 1024) :
    k0_pay10 x0 x1 (ix2 r q)
      = dist (x0 (ix3 (0 : Fin 1) r (0 : Fin 3))) (x0 (ix3 (0 : Fin 1) r (1 : Fin 3))) (x0 (ix3 (0 : Fin 1) r (2 : Fin 3)))
          (x1 (ix3 (0 : Fin 1) (0 : Fin 3) q)) (x1 (ix3 (0 : Fin 1) (1 : Fin 3) q)) (x1 (ix3 (0 : Fin 1) (2 : Fin 3) q)) := by
  -- coordinate o of row r, spread over the columns
  have hr : ∀ (o : ℕ) (ho : o < 3) (hs : S1024x3.Slices ![0, o] S1024x1),
      broadcastTo S1024x1024 (extractStridedSlice S1024x1 ![0, o] (shapeCast S1024x3 x0 shapeCasts_S1x1024x3_S1024x3) hs)
          broadcasts_S1024x1_S1024x1024 (ix2 r q)
        = x0 (ix3 (0 : Fin 1) r (⟨o, ho⟩ : Fin 3)) := fun o ho hs =>
    (broadcastTo_a1_ab_apply _ _ r q).trans
      ((slice2_axis1_apply o _ hs r (0 : Fin 1) (⟨o, ho⟩ : Fin 3) rfl).trans
        (shapeCast_1ab_ab_apply x0 _ r _))
  -- coordinate o of column q, spread over the rows
  have hc : ∀ (o : ℕ) (ho : o < 3) (hs : S3x1024.Slices ![o, 0] S1x1024),
      broadcastTo S1024x1024 (extractStridedSlice S1x1024 ![o, 0] (shapeCast S3x1024 x1 shapeCasts_S1x3x1024_S3x1024) hs)
          broadcasts_S1x1024_S1024x1024 (ix2 r q)
        = x1 (ix3 (0 : Fin 1) (⟨o, ho⟩ : Fin 3) q) := fun o ho hs =>
    (broadcastTo_1b_ab_apply _ _ r q).trans
      ((slice2_axis0_apply o _ hs (0 : Fin 1) q (⟨o, ho⟩ : Fin 3) rfl).trans
        (shapeCast_1ab_ab_apply x1 _ _ q))
  unfold k0_pay10 Cert.Hausdorff.dist
  simp only [sqrt_apply, addf_apply, mulf_apply, subf_apply, broadcast_apply]
  rw [hr 0 (by decide), hr 1 (by decide), hr 2 (by decide), hc 0 (by decide), hc 1 (by decide), hc 2 (by decide)]
  rfl

/-- The row minima after a tile: the old minimum of row r against the least entry of row r of the tile. -/
theorem pay11_apply (x0 : Vec Ideal S1x1024x3 .f32) (x1 : Vec Ideal S1x3x1024 .f32) (v37 : Vec Ideal S1024x1 .f32) (r : Fin 1024) :
    k0_pay11 x0 x1 v37 (ix2 r (0 : Fin 1)) = min (v37 (ix2 r (0 : Fin 1))) (⨅ q : Fin 1024, k0_pay10 x0 x1 (ix2 r q)) := by
  unfold k0_pay11
  refine (minimumf_apply _ _ _).trans (congrArg (min _) ?_)
  exact (shapeCast_a_a1_apply _ _ r (0 : Fin 1)).trans (rowMin_apply _ r)

/-- Storing the row minima changes nothing (a cast to the same shape). -/
theorem pay1_eq (v : FVec Ideal S1024x1 .f32) : k0_pay1 v = v := by
  unfold k0_pay1
  exact shapeCast_self v _

/-- The column minima after a tile: the old minimum of column q against the least entry of column q of the tile. -/
theorem pay2_apply (v34 : FVec Ideal S1024x1024 .f32) (v47 : Vec Ideal S1x1024 .f32) (q : Fin 1024) :
    k0_pay2 v34 v47 (ix2 (0 : Fin 1) q) = min (v47 (ix2 (0 : Fin 1) q)) (⨅ r : Fin 1024, v34 (ix2 r q)) := by
  unfold k0_pay2
  refine (congrFun (shapeCast_self _ _) _).trans ?_
  refine (minimumf_apply _ _ _).trans (congrArg (min _) ?_)
  exact (shapeCast_a_1a_apply _ _ (0 : Fin 1) q).trans (colMin_apply _ q)

/-- The running maximum after a row of tiles: the old one against the greatest of the 1024 row minima. -/
theorem pay3_apply (v61 : Vec Ideal S1024x1 .f32) (v64 : Vec Ideal S1x1 .f32) (y : S1x1.Idx) :
    k0_pay3 v61 v64 y = max (v64 (ix2 (0 : Fin 1) (0 : Fin 1))) (⨆ r : Fin 1024, v61 (ix2 r (0 : Fin 1))) := by
  obtain ⟨a, b, rfl⟩ : ∃ (a b : Fin 1), y = ix2 a b := ⟨y 0, y 1, eq_ix2 y⟩
  obtain rfl : a = 0 := Subsingleton.elim _ _
  obtain rfl : b = 0 := Subsingleton.elim _ _
  unfold k0_pay3
  refine (congrFun (shapeCast_self _ _) _).trans ?_
  refine (maximumf_apply _ _ _).trans (congrArg (max _) ?_)
  exact (shapeCast_a_1a_apply _ _ (0 : Fin 1) (0 : Fin 1)).trans (colMax_apply _ _)

/-- The first result block: the running maximum in all 128 lanes. -/
theorem pay4_apply (v66 : Vec Ideal S1x1 .f32) (y : S1x1x128.Idx) :
    k0_pay4 v66 y = v66 (ix2 (0 : Fin 1) (0 : Fin 1)) := by
  unfold k0_pay4
  refine (broadcastTo_111_11c_apply _ _ y).trans ?_
  refine (congrFun (shapeCast_self _ _) _).trans ?_
  exact shapeCast_ab_1ab_apply v66 _ (0 : Fin 1) (0 : Fin 1) (0 : Fin 1)

/-- The second result block: in all 128 lanes the spare accumulator against the greatest of the 4096 column minima. -/
theorem pay5_apply (v61 : Vec Ideal S1x4096 .f32) (v64 : Vec Ideal S1x1 .f32) (y : S1x1x128.Idx) :
    k0_pay5 v61 v64 y = max (v64 (ix2 (0 : Fin 1) (0 : Fin 1))) (⨆ q : Fin 4096, v61 (ix2 (0 : Fin 1) q)) := by
  unfold k0_pay5
  refine (broadcastTo_111_11c_apply _ _ y).trans ?_
  refine (congrFun (shapeCast_self _ _) _).trans ?_
  refine (shapeCast_ab_1ab_apply _ _ (0 : Fin 1) (0 : Fin 1) (0 : Fin 1)).trans ?_
  refine (maximumf_apply _ _ _).trans (congrArg (max _) ?_)
  exact (shapeCast_a_1a_apply _ _ (0 : Fin 1) (0 : Fin 1)).trans (rowMax_apply _ _)

/-- The resets: minus infinity for the two maxima, plus infinity for the column and row minima. -/
theorem pay6_apply (y : S1x1.Idx) : k0_pay6 (F := Ideal) y = (⊥ : EReal) := by
  unfold k0_pay6
  exact (congrFun (shapeCast_self _ _) y).trans ofBits_ninf
theorem pay7_apply (y : S1x1.Idx) : k0_pay7 (F := Ideal) y = (⊥ : EReal) := by
  unfold k0_pay7
  exact (congrFun (shapeCast_self _ _) y).trans ofBits_ninf
theorem pay8_apply (y : S1x4096.Idx) : k0_pay8 (F := Ideal) y = (⊤ : EReal) := by
  unfold k0_pay8
  exact (congrFun (shapeCast_self _ _) y).trans ofBits_pinf
theorem pay9_apply (y : S1024x1.Idx) : k0_pay9 (F := Ideal) y = (⊤ : EReal) := by
  unfold k0_pay9
  exact (congrFun (shapeCast_self _ _) y).trans ofBits_pinf

end Cert.KernelIdeal.Tile

end
-- ==== Proof.Blocks.lean ====
/-
  Where a grid point sits and what its two input blocks are: point t of the 4 × 4 × 4 grid is batch t / 16, row tile
  (t / 4) % 4 and column tile t % 4; its block of the first cloud is rows 1024 · (row tile) … of that batch, its block
  of the second cloud (which the program transposes first: coordinate, then point) columns 1024 · (column tile) … .
-/
import proofs.«128619_j46377056862526_1_alg».proof.Proof.Gen.KernelIdeal.Frame
import proofs.«128619_j46377056862526_1_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

open Idealize.ShloMosaic Idealize.ShloMosaic.TcCoe Idealize.SL.Sem Idealize.ShloMosaic.ValueIdx

namespace Cert.KernelIdeal.Blocks

open Cert.KernelIdeal Cert.KernelIdeal.Gen Cert.Hausdorff

variable {F : FTy → Type} [FloatOps F]
variable (m : (ℓ : Loc nD τ sig) → Buf (Elt F) ℓ)

/-- The batch, the row tile and the column tile of a grid point. -/
def bOf (t : Fin cfg0.N) : Fin 4 := ⟨t.val / 16, by have := t.isLt; have : cfg0.N = 64 := N_0; omega⟩
def iOf (t : Fin cfg0.N) : Fin 4 := ⟨(t.val / 4) % 4, Nat.mod_lt _ (by decide)⟩
def jOf (t : Fin cfg0.N) : Fin 4 := ⟨t.val % 4, Nat.mod_lt _ (by decide)⟩

/-- The block indices of the two input windows and the column offset of the body's tile, at every point. -/
theorem idx0 : ∀ t : Fin cfg0.N, win0_0.index t 0 = t.val / 16 ∧ win0_0.index t 1 = (t.val / 4) % 4 ∧ win0_0.index t 2 = 0 :=
  (by decide +kernel : ∀ t : Fin grid0.N, win0_0.index t 0 = t.val / 16 ∧ win0_0.index t 1 = (t.val / 4) % 4 ∧ win0_0.index t 2 = 0)
theorem idx1 : ∀ t : Fin cfg0.N, win0_1.index t 0 = t.val / 16 ∧ win0_1.index t 1 = 0 ∧ win0_1.index t 2 = t.val % 4 :=
  (by decide +kernel : ∀ t : Fin grid0.N, win0_1.index t 0 = t.val / 16 ∧ win0_1.index t 1 = 0 ∧ win0_1.index t 2 = t.val % 4)
theorem off1 : ∀ t : Fin cfg0.N, k0_off1 (grid0.coords t) = ![0, 1024 * (t.val % 4)] :=
  (by decide +kernel : ∀ t : Fin grid0.N, k0_off1 (grid0.coords t) = ![0, 1024 * (t.val % 4)])

/-- The two input blocks of a point, typed by their literal shapes. -/
abbrev predBlk (c : Dev nD) (t : Fin cfg0.N) : Vec F S1x1024x3 .f32 := iblk m c 0 t
abbrev labBlk (c : Dev nD) (t : Fin cfg0.N) : Vec F S1x3x1024 .f32 := iblk m c 1 t

theorem predBlk_apply (c : Dev nD) (t : Fin cfg0.N) (r : Fin 1024) (d : Fin 3) :
    predBlk m c t (ix3 (0 : Fin 1) r d) = V m c main_arg0 (ix3 (bOf t) (at4 (iOf t) r) d) := by
  obtain ⟨h0, h1, h2⟩ := idx0 t
  unfold predBlk iblk
  rw [View.read_apply]
  show V m c main_arg0 _ = V m c main_arg0 _
  congr 1
  funext a
  apply Fin.ext
  match a with
  | ⟨0, _⟩ => show win0_0.index t 0 * 1 + 1 * 0 = t.val / 16; rw [h0]; omega
  | ⟨1, _⟩ => show win0_0.index t 1 * 1024 + 1 * r.val = 1024 * ((t.val / 4) % 4) + r.val; rw [h1]; omega
  | ⟨2, _⟩ => show win0_0.index t 2 * 3 + 1 * d.val = d.val; rw [h2]; omega

theorem labBlk_apply (c : Dev nD) (t : Fin cfg0.N) (d : Fin 3) (q : Fin 1024) :
    labBlk m c t (ix3 (0 : Fin 1) d q) = V m c main_v0 (ix3 (bOf t) d (at4 (jOf t) q)) := by
  obtain ⟨h0, h1, h2⟩ := idx1 t
  unfold labBlk iblk
  rw [View.read_apply]
  show V m c main_v0 _ = V m c main_v0 _
  congr 1
  funext a
  apply Fin.ext
  match a with
  | ⟨0, _⟩ => show win0_1.index t 0 * 1 + 1 * 0 = t.val / 16; rw [h0]; omega
  | ⟨1, _⟩ => show win0_1.index t 1 * 3 + 1 * d.val = d.val; rw [h1]; omega
  | ⟨2, _⟩ => show win0_1.index t 2 * 1024 + 1 * q.val = 1024 * (t.val % 4) + q.val; rw [h2]; omega

/-- The second window's array is the second argument with its last two axes exchanged. -/
theorem labT_eq (c : Dev nD) :
    (V m c main_v0 : S4x3x4096.Idx → F .f32)
      = transpose S4x3x4096 [0, 2, 1] (m ((c : Thread nD τ).loc main_arg1)) transposes_S4x4096x3_S4x3x4096_0_2_1 := by
  show StableHlo.after hostOps0 (fun b => m (c, b)) (Proc.devRef .tc main_v0) = _
  after_results

theorem labT_apply (c : Dev nD) (b : Fin 4) (d : Fin 3) (n : Fin 4096) :
    (V m c main_v0 : S4x3x4096.Idx → F .f32) (ix3 b d n) = m ((c : Thread nD τ).loc main_arg1) (ix3 b n d) := by
  rw [labT_eq]
  exact transpose_ix3_021_apply _ _ b d n

end Cert.KernelIdeal.Blocks

end
-- ==== Proof.Invariant.lean ====
/-
  The running state of the tiled evaluation, point by point.

  After grid point t (batch b = t / 16, tile number s = t % 16 within the batch) the four carried buffers hold exactly
  the closed forms of the tiled evaluation of batch b's distance table: the column minima over the tiles 0 … s, the
  row minima of the current row tile over its column tiles so far, the greatest whole-row minimum of the finished row
  tiles, and minus infinity in the spare accumulator.  Proved by induction on the point through the five control
  cases; at the last point of a batch the two output blocks hold the batch's two directed terms.
-/
import proofs.«128619_j46377056862526_1_alg».proof.Proof.Pieces
import proofs.«128619_j46377056862526_1_alg».proof.Proof.TileValue
import proofs.«128619_j46377056862526_1_alg».proof.Proof.Blocks

noncomputable section

open Idealize.ShloMosaic Idealize.ShloMosaic.TcCoe Idealize.SL.Sem Idealize.ShloMosaic.ValueIdx

namespace Cert.KernelIdeal.Inv

open Cert.KernelIdeal Cert.KernelIdeal.Gen Cert.Hausdorff Cert.KernelIdeal.Pieces Cert.KernelIdeal.Tile Cert.KernelIdeal.Blocks

variable (m : (ℓ : Loc nD τ sig) → Buf (Elt Ideal) ℓ)

/-- Batch b's distance table of the two argument arrays. -/
abbrev D (c : Dev nD) (b : Fin 4) : Fin 4096 → Fin 4096 → EReal :=
  table (m ((c : Thread nD τ).loc main_arg0)) (m ((c : Thread nD τ).loc main_arg1)) b

/-- The body's distance tile at a point is the tile of the batch's table at the point's row and column tiles. -/
theorem tile_eq (c : Dev nD) (t : Fin cfg0.N) (r q : Fin 1024) :
    k0_pay10 (predBlk m c t) (labBlk m c t) (ix2 r q) = D m c (bOf t) (at4 (iOf t) r) (at4 (jOf t) q) := by
  have e0 : ∀ d : Fin 3, V m c main_arg0 (ix3 (bOf t) (at4 (iOf t) r) d)
      = m ((c : Thread nD τ).loc main_arg0) (ix3 (bOf t) (at4 (iOf t) r) d) := fun d => congrFun (V_main_arg0 m c) _
  have e1 : ∀ d : Fin 3, V m c main_v0 (ix3 (bOf t) d (at4 (jOf t) q))
      = m ((c : Thread nD τ).loc main_arg1) (ix3 (bOf t) (at4 (jOf t) q) d) := fun d => labT_apply m c (bOf t) d (at4 (jOf t) q)
  refine (pay10_apply _ _ r q).trans ?_
  rw [predBlk_apply, predBlk_apply, predBlk_apply, labBlk_apply, labBlk_apply, labBlk_apply, e0, e0, e0, e1, e1, e1]
  rfl

/-- The new column minimum at local column q of the point's tile: the old one against the tile's column. -/
theorem col_in (c : Dev nD) (t : Fin cfg0.N) (base : Vec Ideal S1x4096 .f32) (q : Fin 1024) :
    k0_pay2 (k0_pay10 (predBlk m c t) (labBlk m c t)) (tileOf (grid0.coords t) base) (ix2 (0 : Fin 1) q)
      = min (base (ix2 (0 : Fin 1) (at4 (jOf t) q))) (⨅ r : Fin 1024, D m c (bOf t) (at4 (iOf t) r) (at4 (jOf t) q)) := by
  refine (pay2_apply _ _ q).trans ?_
  refine congrArg₂ min ?_ ?_
  · show base ((Rect.unit (s := S1x4096) (k0_off1 (grid0.coords t)) S1x1024.size (k0_off1_inb (grid0.coords t))).emb (ix2 (0 : Fin 1) q)) = _
    congr 1
    funext a
    apply Fin.ext
    have ho := off1 t
    match a with
    | ⟨0, _⟩ => show k0_off1 (grid0.coords t) 0 + 1 * 0 = 0; rw [ho]; rfl
    | ⟨1, _⟩ => show k0_off1 (grid0.coords t) 1 + 1 * q.val = 1024 * (t.val % 4) + q.val; rw [ho]; show 1024 * (t.val % 4) + 1 * q.val = _; omega
  · exact iInf_congr fun r => tile_eq m c t r q

/-! ## The update equations of the closed forms, in the form the points meet them -/

theorem colMin_succ_in' (D : Fin 4096 → Fin 4096 → EReal) (s : ℕ) (i : Fin 4) (hi : i.val = (s + 1) / 4) (q : Fin 4096)
    (hq : q.val / 1024 = (s + 1) % 4) : colMin D (s + 1) q = min (colMin D s q) (⨅ r, D (at4 i r) q) := by
  obtain ⟨j, q', rfl⟩ := exists_at4 q
  rw [at4_div] at hq
  exact colMin_succ_in D s i j hi hq q'

theorem colMin_zero_in' (D : Fin 4096 → Fin 4096 → EReal) (q : Fin 4096) (hq : q.val / 1024 = 0) :
    colMin D 0 q = ⨅ r, D (at4 0 r) q := by
  obtain ⟨j, q', rfl⟩ := exists_at4 q
  rw [at4_div] at hq
  obtain rfl : j = 0 := Fin.ext hq
  exact colMin_zero_in D q'

/-- What the column-minimum row holds after a point, from its two readings (inside and outside the point's tile):
    inside the tile the old minimum against the tile's column, outside the old minimum. -/
theorem col_update (c : Dev nD) (t : Fin cfg0.N) (S0new base : Vec Ideal S1x4096 .f32)
    (hin : ∀ (y : S1x4096.Idx) (q : S1x1024.Idx),
      (∀ a, (y a).val = (![0, 1024 * (t.val % 4)] : Fin 2 → ℕ) a + (q a).val) →
      S0new y = k0_pay2 (k0_pay10 (predBlk m c t) (labBlk m c t)) (tileOf (grid0.coords t) base) q)
    (hout : ∀ (y : S1x4096.Idx) (a : Fin 2),
      ((y a).val < (![0, 1024 * (t.val % 4)] : Fin 2 → ℕ) a
        ∨ (![0, 1024 * (t.val % 4)] : Fin 2 → ℕ) a + S1x1024.size a ≤ (y a).val) → S0new y = base y)
    (q : Fin 4096) :
    S0new (ix2 (0 : Fin 1) q)
      = if q.val / 1024 = t.val % 4 then
          min (base (ix2 (0 : Fin 1) q)) (⨅ r : Fin 1024, D m c (bOf t) (at4 (iOf t) r) q)
        else base (ix2 (0 : Fin 1) q) := by
  by_cases hq : q.val / 1024 = t.val % 4
  · rw [if_pos hq]
    have hq' : at4 (jOf t) ⟨q.val % 1024, Nat.mod_lt _ (by decide)⟩ = q :=
      Fin.ext (by rw [at4_val]; show 1024 * (t.val % 4) + q.val % 1024 = q.val; omega)
    rw [hin (ix2 (0 : Fin 1) q) (ix2 (0 : Fin 1) (⟨q.val % 1024, Nat.mod_lt _ (by decide)⟩ : Fin 1024)) (fun a => by
      match a with
      | ⟨0, _⟩ => rfl
      | ⟨1, _⟩ => show q.val = 1024 * (t.val % 4) + q.val % 1024; omega)]
    rw [col_in, hq']
  · rw [if_neg hq]
    exact hout (ix2 (0 : Fin 1) q) 1 (by
      show q.val < 1024 * (t.val % 4) ∨ 1024 * (t.val % 4) + 1024 ≤ q.val
      omega)

/-- The new row minima: the old ones against the least entry of each row of the tile. -/
theorem row_update (c : Dev nD) (t : Fin cfg0.N) (old : Vec Ideal S1024x1 .f32) (r : Fin 1024) :
    rowStep (predBlk m c t) (labBlk m c t) old (ix2 r (0 : Fin 1))
      = min (old (ix2 r (0 : Fin 1))) (⨅ q : Fin 1024, D m c (bOf t) (at4 (iOf t) r) (at4 (jOf t) q)) := by
  show k0_pay1 (k0_pay11 (predBlk m c t) (labBlk m c t) old) (ix2 r (0 : Fin 1)) = _
  rw [pay1_eq]
  refine (pay11_apply _ _ _ r).trans ?_
  exact congrArg (min _) (iInf_congr fun q => tile_eq m c t r q)

/-! ## The state after a point -/

/-- What the four carried buffers hold after point t. -/
structure State (c : Dev nD) (t : Fin cfg0.N) (S0 : Vec Ideal S1x4096 .f32) (S1 : Vec Ideal S1024x1 .f32)
    (S2 S3 : Vec Ideal S1x1 .f32) : Prop where
  col : ∀ q : Fin 4096, S0 (ix2 (0 : Fin 1) q) = colMin (D m c (bOf t)) (t.val % 16) q
  row : ∀ r : Fin 1024, S1 (ix2 r (0 : Fin 1)) = rowMin (D m c (bOf t)) (t.val % 16) (iOf t) r
  done : ∀ y : S1x1.Idx, S2 y = doneMax (D m c (bOf t)) (t.val % 16)
  spare : ∀ y : S1x1.Idx, S3 y = (⊥ : EReal)

/-- The point before. -/
abbrev pre (t : Fin cfg0.N) : Fin cfg0.N := ⟨t.val - 1, Nat.lt_of_le_of_lt (Nat.sub_le _ _) t.isLt⟩

theorem bOf_pre (t : Fin cfg0.N) (h : t.val % 16 ≠ 0) : bOf (pre t) = bOf t :=
  Fin.ext (by show (t.val - 1) / 16 = t.val / 16; omega)
theorem iOf_pre (t : Fin cfg0.N) (h : t.val % 4 ≠ 0) : iOf (pre t) = iOf t :=
  Fin.ext (by show ((t.val - 1) / 4) % 4 = (t.val / 4) % 4; omega)
theorem iOf_val (t : Fin cfg0.N) : (iOf t).val = (t.val % 16) / 4 := by show (t.val / 4) % 4 = _; omega
theorem jOf_val (t : Fin cfg0.N) : (jOf t).val = (t.val % 16) % 4 := by show t.val % 4 = _; omega

/-- The first point of a batch. -/
theorem state_first (c : Dev nD) (t : Fin cfg0.N) (h16 : t.val % 16 = 0)
    (S0 : Vec Ideal S1x4096 .f32) (S1 : Vec Ideal S1024x1 .f32) (S2 S3 : Vec Ideal S1x1 .f32)
    (hin : ∀ (y : S1x4096.Idx) (q : S1x1024.Idx),
      (∀ a, (y a).val = (![0, 1024 * (t.val % 4)] : Fin 2 → ℕ) a + (q a).val) →
      S0 y = k0_pay2 (k0_pay10 (predBlk m c t) (labBlk m c t)) (tileOf (grid0.coords t) (k0_pay8 (F := Ideal))) q)
    (hout : ∀ (y : S1x4096.Idx) (a : Fin 2),
      ((y a).val < (![0, 1024 * (t.val % 4)] : Fin 2 → ℕ) a
        ∨ (![0, 1024 * (t.val % 4)] : Fin 2 → ℕ) a + S1x1024.size a ≤ (y a).val) → S0 y = k0_pay8 (F := Ideal) y)
    (h1 : S1 = rowStep (predBlk m c t) (labBlk m c t) (k0_pay9 (F := Ideal)))
    (h2 : S2 = k0_pay6 (F := Ideal)) (h3 : S3 = k0_pay7 (F := Ideal)) : State m c t S0 S1 S2 S3 := by
  have hi0 : iOf t = 0 := Fin.ext (by rw [iOf_val, h16]; rfl)
  refine ⟨fun q => ?_, fun r => ?_, fun y => ?_, fun y => ?_⟩
  · rw [col_update m c t S0 _ hin hout q, h16, pay8_apply]
    by_cases hq : q.val / 1024 = t.val % 4
    · rw [if_pos hq, min_eq_right le_top, colMin_zero_in' _ q (by omega), hi0]
    · rw [if_neg hq, colMin_zero_out _ q (by omega)]
  · rw [h1, row_update, pay9_apply, min_eq_right le_top, h16, rowMin_reset _ 0 rfl]
    have hj0 : jOf t = 0 := Fin.ext (by rw [jOf_val, h16]; rfl)
    rw [hj0]
  · rw [h2, pay6_apply, h16, doneMax_of_lt _ 0 (by decide)]
  · rw [h3, pay7_apply]

/-- A later point of a batch, from the state after the point before. -/
theorem state_next (c : Dev nD) (t : Fin cfg0.N) (h16 : t.val % 16 ≠ 0)
    (xs0 : Vec Ideal S1x4096 .f32) (xs1 : Vec Ideal S1024x1 .f32) (xs2 xs3 : Vec Ideal S1x1 .f32)
    (ih : State m c (pre t) xs0 xs1 xs2 xs3)
    (S0 : Vec Ideal S1x4096 .f32) (S1 : Vec Ideal S1024x1 .f32) (S2 S3 : Vec Ideal S1x1 .f32)
    (hin : ∀ (y : S1x4096.Idx) (q : S1x1024.Idx),
      (∀ a, (y a).val = (![0, 1024 * (t.val % 4)] : Fin 2 → ℕ) a + (q a).val) →
      S0 y = k0_pay2 (k0_pay10 (predBlk m c t) (labBlk m c t)) (tileOf (grid0.coords t) xs0) q)
    (hout : ∀ (y : S1x4096.Idx) (a : Fin 2),
      ((y a).val < (![0, 1024 * (t.val % 4)] : Fin 2 → ℕ) a
        ∨ (![0, 1024 * (t.val % 4)] : Fin 2 → ℕ) a + S1x1024.size a ≤ (y a).val) → S0 y = xs0 y)
    (h1 : (t.val % 4 = 0 ∧ S1 = rowStep (predBlk m c t) (labBlk m c t) (k0_pay9 (F := Ideal)))
        ∨ (t.val % 4 ≠ 0 ∧ S1 = rowStep (predBlk m c t) (labBlk m c t) xs1))
    (h2 : (t.val % 4 ≠ 3 ∧ S2 = xs2) ∨ (t.val % 4 = 3 ∧ S2 = k0_pay3 S1 xs2))
    (h3 : S3 = xs3) : State m c t S0 S1 S2 S3 := by
  obtain ⟨s, hs⟩ : ∃ s, t.val % 16 = s + 1 := ⟨t.val % 16 - 1, by omega⟩
  have hps : (pre t).val % 16 = s := by show (t.val - 1) % 16 = s; omega
  have hb := bOf_pre t h16
  have hrow : ∀ r : Fin 1024, S1 (ix2 r (0 : Fin 1)) = rowMin (D m c (bOf t)) (t.val % 16) (iOf t) r := by
    intro r
    rcases h1 with ⟨h4, rfl⟩ | ⟨h4, rfl⟩
    · rw [row_update, pay9_apply, min_eq_right le_top, rowMin_reset _ _ (by omega)]
      have hj0 : jOf t = 0 := Fin.ext (by rw [jOf_val]; omega)
      rw [hj0]
    · have e := ih.row r
      rw [hb, hps, iOf_pre t h4] at e
      rw [row_update, e, hs, rowMin_succ _ s (by omega) (iOf t) (jOf t) (by rw [jOf_val]; omega)]
  refine ⟨fun q => ?_, hrow, fun y => ?_, fun y => ?_⟩
  · have e := ih.col q
    rw [hb, hps] at e
    rw [col_update m c t S0 _ hin hout q, e, hs]
    by_cases hq : q.val / 1024 = t.val % 4
    · rw [if_pos hq, colMin_succ_in' _ s (iOf t) (by rw [iOf_val]; omega) q (by omega)]
    · rw [if_neg hq, colMin_succ_out _ s q (by omega)]
  · have e := ih.done y
    rw [hb, hps] at e
    rcases h2 with ⟨h4, rfl⟩ | ⟨h4, rfl⟩
    · rw [e, hs, doneMax_succ_keep _ s (by omega)]
    · rw [pay3_apply, ih.done, hb, hps, hs, doneMax_succ_add _ s (by omega) (iOf t) (by rw [iOf_val]; omega)]
      refine congrArg (max _) (iSup_congr fun r => ?_)
      rw [hrow r, hs]
  · rw [h3]; exact ih.spare y

/-! ## The five control cases -/

/-- What the point before left in the four carried buffers. -/
abbrev P0 (c : Dev nD) (t : Fin cfg0.N) : Vec Ideal S1x4096 .f32 :=
  (outsAt0 m c (t.val - 1) (Nat.lt_of_le_of_lt (Nat.sub_le _ _) t.isLt)).2.2.1
abbrev P1 (c : Dev nD) (t : Fin cfg0.N) : Vec Ideal S1024x1 .f32 :=
  (outsAt0 m c (t.val - 1) (Nat.lt_of_le_of_lt (Nat.sub_le _ _) t.isLt)).2.2.2.1
abbrev P2 (c : Dev nD) (t : Fin cfg0.N) : Vec Ideal S1x1 .f32 :=
  (outsAt0 m c (t.val - 1) (Nat.lt_of_le_of_lt (Nat.sub_le _ _) t.isLt)).2.2.2.2.1
abbrev P3 (c : Dev nD) (t : Fin cfg0.N) : Vec Ideal S1x1 .f32 :=
  (outsAt0 m c (t.val - 1) (Nat.lt_of_le_of_lt (Nat.sub_le _ _) t.isLt)).2.2.2.2.2

theorem state_A (c : Dev nD) (t : Fin cfg0.N) (h0 : t.val % 16 = 0) (h1 : t.val % 4 = 0) (h2 : ¬t.val % 4 = 3) (h3 : ¬t.val % 16 = 15) :
    State m c t (outsAt0 m c t.val t.isLt).2.2.1 (outsAt0 m c t.val t.isLt).2.2.2.1 (outsAt0 m c t.val t.isLt).2.2.2.2.1 (outsAt0 m c t.val t.isLt).2.2.2.2.2 := by
  rw [outsAt0_A m c t h0 h1 h2 h3]
  dsimp only
  exact state_first m c t h0 _ _ _ _
    (fun y q hx => colMin_A_in c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (fun h => h3 ((hcond0_3 t).mp h)) (predBlk m c t) (labBlk m c t) _ (off1 t) y q hx)
    (fun y a ha => colMin_A_out c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (fun h => h3 ((hcond0_3 t).mp h)) (predBlk m c t) (labBlk m c t) _ (off1 t) y a ha)
    (rowMin_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (fun h => h3 ((hcond0_3 t).mp h)) (predBlk m c t) (labBlk m c t))
    (doneMax_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (fun h => h3 ((hcond0_3 t).mp h)) (predBlk m c t) (labBlk m c t))
    (spare_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (fun h => h3 ((hcond0_3 t).mp h)) (predBlk m c t) (labBlk m c t))

theorem state_B (c : Dev nD) (t : Fin cfg0.N) (h0 : ¬t.val % 16 = 0) (h1 : ¬t.val % 4 = 0) (h2 : ¬t.val % 4 = 3) (h3 : ¬t.val % 16 = 15)
    (ih : State m c (pre t) (P0 m c t) (P1 m c t) (P2 m c t) (P3 m c t)) :
    State m c t (outsAt0 m c t.val t.isLt).2.2.1 (outsAt0 m c t.val t.isLt).2.2.2.1 (outsAt0 m c t.val t.isLt).2.2.2.2.1 (outsAt0 m c t.val t.isLt).2.2.2.2.2 := by
  rw [outsAt0_B m c t h0 h1 h2 h3]
  dsimp only
  exact state_next m c t h0 _ _ _ _ ih _ _ _ _
    (fun y q hx => colMin_B_in c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (fun h => h3 ((hcond0_3 t).mp h)) (predBlk m c t) (labBlk m c t) (P0 m c t) (P1 m c t) (P2 m c t) (P3 m c t) _ (off1 t) y q hx)
    (fun y a ha => colMin_B_out c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (fun h => h3 ((hcond0_3 t).mp h)) (predBlk m c t) (labBlk m c t) (P0 m c t) (P1 m c t) (P2 m c t) (P3 m c t) _ (off1 t) y a ha)
    (Or.inr ⟨h1, rowMin_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (fun h => h3 ((hcond0_3 t).mp h)) (predBlk m c t) (labBlk m c t) (P0 m c t) (P1 m c t) (P2 m c t) (P3 m c t)⟩)
    (Or.inl ⟨h2, rfl⟩)
    rfl

theorem state_C (c : Dev nD) (t : Fin cfg0.N) (h0 : ¬t.val % 16 = 0) (h1 : ¬t.val % 4 = 0) (h2 : t.val % 4 = 3) (h3 : ¬t.val % 16 = 15)
    (ih : State m c (pre t) (P0 m c t) (P1 m c t) (P2 m c t) (P3 m c t)) :
    State m c t (outsAt0 m c t.val t.isLt).2.2.1 (outsAt0 m c t.val t.isLt).2.2.2.1 (outsAt0 m c t.val t.isLt).2.2.2.2.1 (outsAt0 m c t.val t.isLt).2.2.2.2.2 := by
  rw [outsAt0_C m c t h0 h1 h2 h3]
  dsimp only
  exact state_next m c t h0 _ _ _ _ ih _ _ _ _
    (fun y q hx => colMin_C_in c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (fun h => h3 ((hcond0_3 t).mp h)) (predBlk m c t) (labBlk m c t) (P0 m c t) (P1 m c t) (P2 m c t) (P3 m c t) _ (off1 t) y q hx)
    (fun y a ha => colMin_C_out c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (fun h => h3 ((hcond0_3 t).mp h)) (predBlk m c t) (labBlk m c t) (P0 m c t) (P1 m c t) (P2 m c t) (P3 m c t) _ (off1 t) y a ha)
    (Or.inr ⟨h1, rowMin_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (fun h => h3 ((hcond0_3 t).mp h)) (predBlk m c t) (labBlk m c t) (P0 m c t) (P1 m c t) (P2 m c t) (P3 m c t)⟩)
    (Or.inr ⟨h2, (doneMax_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (fun h => h3 ((hcond0_3 t).mp h)) (predBlk m c t) (labBlk m c t) (P0 m c t) (P1 m c t) (P2 m c t) (P3 m c t)).trans (congrArg (fun v => k0_pay3 v (P2 m c t)) (rowMin_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (fun h => h3 ((hcond0_3 t).mp h)) (predBlk m c t) (labBlk m c t) (P0 m c t) (P1 m c t) (P2 m c t) (P3 m c t)).symm)⟩)
    rfl

theorem state_D (c : Dev nD) (t : Fin cfg0.N) (h0 : ¬t.val % 16 = 0) (h1 : t.val % 4 = 0) (h2 : ¬t.val % 4 = 3) (h3 : ¬t.val % 16 = 15)
    (ih : State m c (pre t) (P0 m c t) (P1 m c t) (P2 m c t) (P3 m c t)) :
    State m c t (outsAt0 m c t.val t.isLt).2.2.1 (outsAt0 m c t.val t.isLt).2.2.2.1 (outsAt0 m c t.val t.isLt).2.2.2.2.1 (outsAt0 m c t.val t.isLt).2.2.2.2.2 := by
  rw [outsAt0_D m c t h0 h1 h2 h3]
  dsimp only
  exact state_next m c t h0 _ _ _ _ ih _ _ _ _
    (fun y q hx => colMin_D_in c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (fun h => h3 ((hcond0_3 t).mp h)) (predBlk m c t) (labBlk m c t) (P0 m c t) (P2 m c t) (P3 m c t) _ (off1 t) y q hx)
    (fun y a ha => colMin_D_out c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (fun h => h3 ((hcond0_3 t).mp h)) (predBlk m c t) (labBlk m c t) (P0 m c t) (P2 m c t) (P3 m c t) _ (off1 t) y a ha)
    (Or.inl ⟨h1, rowMin_D c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (fun h => h3 ((hcond0_3 t).mp h)) (predBlk m c t) (labBlk m c t) (P0 m c t) (P2 m c t) (P3 m c t)⟩)
    (Or.inl ⟨h2, rfl⟩)
    rfl

theorem state_E (c : Dev nD) (t : Fin cfg0.N) (h0 : ¬t.val % 16 = 0) (h1 : ¬t.val % 4 = 0) (h2 : t.val % 4 = 3) (h3 : t.val % 16 = 15)
    (ih : State m c (pre t) (P0 m c t) (P1 m c t) (P2 m c t) (P3 m c t)) :
    State m c t (outsAt0 m c t.val t.isLt).2.2.1 (outsAt0 m c t.val t.isLt).2.2.2.1 (outsAt0 m c t.val t.isLt).2.2.2.2.1 (outsAt0 m c t.val t.isLt).2.2.2.2.2 := by
  rw [outsAt0_E m c t h0 h1 h2 h3]
  dsimp only
  exact state_next m c t h0 _ _ _ _ ih _ _ _ _
    (fun y q hx => colMin_E_in c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) ((hcond0_3 t).mpr h3) (predBlk m c t) (labBlk m c t) (P0 m c t) (P1 m c t) (P2 m c t) (P3 m c t) _ (off1 t) y q hx)
    (fun y a ha => colMin_E_out c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) ((hcond0_3 t).mpr h3) (predBlk m c t) (labBlk m c t) (P0 m c t) (P1 m c t) (P2 m c t) (P3 m c t) _ (off1 t) y a ha)
    (Or.inr ⟨h1, rowMin_E c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) ((hcond0_3 t).mpr h3) (predBlk m c t) (labBlk m c t) (P0 m c t) (P1 m c t) (P2 m c t) (P3 m c t)⟩)
    (Or.inr ⟨h2, (doneMax_E c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) ((hcond0_3 t).mpr h3) (predBlk m c t) (labBlk m c t) (P0 m c t) (P1 m c t) (P2 m c t) (P3 m c t)).trans (congrArg (fun v => k0_pay3 v (P2 m c t)) (rowMin_E c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) ((hcond0_3 t).mpr h3) (predBlk m c t) (labBlk m c t) (P0 m c t) (P1 m c t) (P2 m c t) (P3 m c t)).symm)⟩)
    rfl

/-- After every point the four carried buffers hold the closed forms. -/
theorem state_all (c : Dev nD) : ∀ (n : ℕ) (h : n < cfg0.N),
    State m c ⟨n, h⟩ (outsAt0 m c n h).2.2.1 (outsAt0 m c n h).2.2.2.1 (outsAt0 m c n h).2.2.2.2.1 (outsAt0 m c n h).2.2.2.2.2
  | 0, h => state_A m c ⟨0, h⟩ rfl rfl (by show ¬(0 % 4 = 3); decide) (by show ¬(0 % 16 = 15); decide)
  | n + 1, h => by
    have hN : cfg0.N = 64 := N_0
    have ih := state_all c n (by omega)
    by_cases h0 : (n + 1) % 16 = 0
    · exact state_A m c ⟨n + 1, h⟩ h0 (by show (n + 1) % 4 = 0; omega) (by show ¬(n + 1) % 4 = 3; omega) (by show ¬(n + 1) % 16 = 15; omega)
    · by_cases h1 : (n + 1) % 4 = 0
      · exact state_D m c ⟨n + 1, h⟩ h0 h1 (by show ¬(n + 1) % 4 = 3; omega) (by show ¬(n + 1) % 16 = 15; omega) ih
      · by_cases h2 : (n + 1) % 4 = 3
        · by_cases h3 : (n + 1) % 16 = 15
          · exact state_E m c ⟨n + 1, h⟩ h0 h1 h2 h3 ih
          · exact state_C m c ⟨n + 1, h⟩ h0 h1 h2 h3 ih
        · exact state_B m c ⟨n + 1, h⟩ h0 h1 h2 (by show ¬(n + 1) % 16 = 15; omega) ih

/-! ## The two output blocks at the last point of a batch -/

/-- At the last point of batch b the first output block holds, in every lane, the greatest nearest-neighbour distance
    from the first cloud to the second, and the second output block the same from the second cloud to the first. -/
theorem out_last (c : Dev nD) (t : Fin cfg0.N) (h15 : t.val % 16 = 15) :
    (∀ y : S1x1x128.Idx, (outsAt0 m c t.val t.isLt).1 y = ⨆ n, ⨅ k, D m c (bOf t) n k)
    ∧ (∀ y : S1x1x128.Idx, (outsAt0 m c t.val t.isLt).2.1 y = ⨆ k, ⨅ n, D m c (bOf t) n k) := by
  have hN : cfg0.N = 64 := N_0
  have h0 : ¬t.val % 16 = 0 := by omega
  have h1 : ¬t.val % 4 = 0 := by omega
  have h2 : t.val % 4 = 3 := by omega
  have h3 : t.val % 16 = 15 := h15
  have st : State m c t (outsAt0 m c t.val t.isLt).2.2.1 (outsAt0 m c t.val t.isLt).2.2.2.1
      (outsAt0 m c t.val t.isLt).2.2.2.2.1 (outsAt0 m c t.val t.isLt).2.2.2.2.2 := state_all m c t.val t.isLt
  have sp : State m c (pre t) (P0 m c t) (P1 m c t) (P2 m c t) (P3 m c t) :=
    state_all m c (t.val - 1) (Nat.lt_of_le_of_lt (Nat.sub_le _ _) t.isLt)
  have e2 : (outsAt0 m c t.val t.isLt).1 = k0_pay4 (outsAt0 m c t.val t.isLt).2.2.2.2.1 := by
    rw [outsAt0_E m c t h0 h1 h2 h3]
    dsimp only
    rw [outXY_E c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) ((hcond0_3 t).mpr h3) (predBlk m c t) (labBlk m c t) (P0 m c t) (P1 m c t) (P2 m c t) (P3 m c t), doneMax_E c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) ((hcond0_3 t).mpr h3) (predBlk m c t) (labBlk m c t) (P0 m c t) (P1 m c t) (P2 m c t) (P3 m c t)]
  have e3 : (outsAt0 m c t.val t.isLt).2.1 = k0_pay5 (outsAt0 m c t.val t.isLt).2.2.1 (P3 m c t) := by
    rw [outsAt0_E m c t h0 h1 h2 h3]
    dsimp only
    rw [outYX_E c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) ((hcond0_3 t).mpr h3) (predBlk m c t) (labBlk m c t) (P0 m c t) (P1 m c t) (P2 m c t) (P3 m c t)]
  constructor
  · intro y
    rw [e2, pay4_apply, st.done, h15, doneMax_last]
  · intro y
    rw [e3, pay5_apply, sp.spare, max_eq_right bot_le]
    refine iSup_congr fun q => ?_
    rw [st.col q, h15, colMin_last]

end Cert.KernelIdeal.Inv

end
-- ==== Proof.KernelValue.lean ====
/-
  The kernel program's result.  The two output arrays f32[4, 1, 128] are written back once per batch, at the batch's
  last grid point, each block holding the batch's directed term in all 128 lanes; the program then takes lane 0 of
  each batch, the maximum over the four batches of either array, and adds the two maxima.
-/
import proofs.«128619_j46377056862526_1_alg».proof.Proof.Invariant
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.Hausdorff Cert.KernelIdeal.Blocks Cert.KernelIdeal.Inv

variable (m : (ℓ : Loc nD τ sig) → Buf (Elt Ideal) ℓ) (ρ : Dev nD → PrngReg)

/-- The block indices of the two output windows: block (batch, 0, 0). -/
theorem idxOut : ∀ t : Fin cfg0.N, win0_2.index t 0 = t.val / 16 ∧ win0_2.index t 1 = 0 ∧ win0_2.index t 2 = 0
    ∧ win0_3.index t 0 = t.val / 16 ∧ win0_3.index t 1 = 0 ∧ win0_3.index t 2 = 0 :=
  (by decide +kernel : ∀ t : Fin grid0.N, win0_2.index t 0 = t.val / 16 ∧ win0_2.index t 1 = 0 ∧ win0_2.index t 2 = 0
    ∧ win0_3.index t 0 = t.val / 16 ∧ win0_3.index t 1 = 0 ∧ win0_3.index t 2 = 0)

/-- The batch an entry of an output array belongs to. -/
def batchOf (y : S4x1x128.Idx) : Fin 4 := ⟨(y 0).val, (y 0).isLt⟩

/-- What the two output arrays end holding: in every lane of batch b the directed term of batch b. -/
abbrev GXY (c : Dev nD) : S4x1x128.Idx → EReal := fun y => ⨆ n, ⨅ k, D m c (batchOf y) n k
abbrev GYX (c : Dev nD) : S4x1x128.Idx → EReal := fun y => ⨆ k, ⨅ n, D m c (batchOf y) n k

theorem flushedXY (c : Dev nD) (t : Fin cfg0.N) (hf : (cfg0.win 2).flush t = true) :
    (dats m 0 c).flushed 2 t = ((cfg0.win 2).blk t).view.read (Elt Ideal) (GXY m c) := by
  have h15 := (flush0_2 t).mp hf
  show (cfg0.win 2).cut (grid0.coords t) ((dats m 0 c).after 2 t) = _
  rw [after0_2]
  funext j
  show (outsAt0 m c t.val t.isLt).1 j = GXY m c (((cfg0.win 2).blk t).view.emb j)
  rw [(out_last m c t h15).1 j]
  have hb : batchOf (((cfg0.win 2).blk t).view.emb j) = bOf t := Fin.ext (by
    show win0_2.index t 0 * 1 + 1 * (j 0).val = t.val / 16
    have h1 := (idxOut t).1
    have h2 : (j 0).val < 1 := (j 0).isLt
    omega)
  show _ = ⨆ n, ⨅ k, D m c (batchOf (((cfg0.win 2).blk t).view.emb j)) n k
  rw [hb]

theorem flushedYX (c : Dev nD) (t : Fin cfg0.N) (hf : (cfg0.win 3).flush t = true) :
    (dats m 0 c).flushed 3 t = ((cfg0.win 3).blk t).view.read (Elt Ideal) (GYX m c) := by
  have h15 := (flush0_3 t).mp hf
  show (cfg0.win 3).cut (grid0.coords t) ((dats m 0 c).after 3 t) = _
  rw [after0_3]
  funext j
  show (outsAt0 m c t.val t.isLt).2.1 j = GYX m c (((cfg0.win 3).blk t).view.emb j)
  rw [(out_last m c t h15).2 j]
  have hb : batchOf (((cfg0.win 3).blk t).view.emb j) = bOf t := Fin.ext (by
    show win0_3.index t 0 * 1 + 1 * (j 0).val = t.val / 16
    have h1 := (idxOut t).2.2.2.1
    have h2 : (j 0).val < 1 := (j 0).isLt
    omega)
  show _ = ⨆ k, ⨅ n, D m c (batchOf (((cfg0.win 3).blk t).view.emb j)) n k
  rw [hb]

/-- Every entry of an output array lies in the block written back at the last point of its batch. -/
theorem coverXY (i : S4x1x128.Idx) :
    ∃ t : Fin cfg0.N, (cfg0.win 2).flush t = true ∧ i ∈ ((cfg0.win 2).blk t).view.set := by
  have hN : cfg0.N = 64 := N_0
  have hi0 : (i 0).val < 4 := (i 0).isLt
  have hi1 : (i 1).val < 1 := (i 1).isLt
  have hi2 : (i 2).val < 128 := (i 2).isLt
  obtain ⟨t, ht⟩ : ∃ t : Fin cfg0.N, t.val = 16 * (i 0).val + 15 := ⟨⟨16 * (i 0).val + 15, by omega⟩, rfl⟩
  refine ⟨t, (flush0_2 t).mpr (by omega), ?_⟩
  show i ∈ ((View.whole main_v1_0).slice (win0_2.rect t)).set
  rw [View.set_slice_whole, Rect.mem_set_unit]
  obtain ⟨e0, e1, e2, -, -, -⟩ := idxOut t
  intro a
  match a with
  | ⟨0, _⟩ =>
    show win0_2.index t 0 * 1 ≤ (i 0).val ∧ (i 0).val < win0_2.index t 0 * 1 + 1
    rw [e0]; omega
  | ⟨1, _⟩ =>
    show win0_2.index t 1 * 1 ≤ (i 1).val ∧ (i 1).val < win0_2.index t 1 * 1 + 1
    rw [e1]; omega
  | ⟨2, _⟩ =>
    show win0_2.index t 2 * 128 ≤ (i 2).val ∧ (i 2).val < win0_2.index t 2 * 128 + 128
    rw [e2]; omega

theorem coverYX (i : S4x1x128.Idx) :
    ∃ t : Fin cfg0.N, (cfg0.win 3).flush t = true ∧ i ∈ ((cfg0.win 3).blk t).view.set := by
  have hN : cfg0.N = 64 := N_0
  have hi0 : (i 0).val < 4 := (i 0).isLt
  have hi1 : (i 1).val < 1 := (i 1).isLt
  have hi2 : (i 2).val < 128 := (i 2).isLt
  obtain ⟨t, ht⟩ : ∃ t : Fin cfg0.N, t.val = 16 * (i 0).val + 15 := ⟨⟨16 * (i 0).val + 15, by omega⟩, rfl⟩
  refine ⟨t, (flush0_3 t).mpr (by omega), ?_⟩
  show i ∈ ((View.whole main_v1_1).slice (win0_3.rect t)).set
  rw [View.set_slice_whole, Rect.mem_set_unit]
  obtain ⟨-, -, -, e0, e1, e2⟩ := idxOut t
  intro a
  match a with
  | ⟨0, _⟩ =>
    show win0_3.index t 0 * 1 ≤ (i 0).val ∧ (i 0).val < win0_3.index t 0 * 1 + 1
    rw [e0]; omega
  | ⟨1, _⟩ =>
    show win0_3.index t 1 * 1 ≤ (i 1).val ∧ (i 1).val < win0_3.index t 1 * 1 + 1
    rw [e1]; omega
  | ⟨2, _⟩ =>
    show win0_3.index t 2 * 128 ≤ (i 2).val ∧ (i 2).val < win0_3.index t 2 * 128 + 128
    rw [e2]; omega

/-- The two output arrays after the run. -/
theorem finalXY (c : Dev nD) : (dats m 0 c).arrAt 2 cfg0.N = GXY m c :=
  (dats m 0 c).arrAt_eq_of_cover 2 (GXY m c) (flushedXY m c) coverXY
theorem finalYX (c : Dev nD) : (dats m 0 c).arrAt 3 cfg0.N = GYX m c :=
  (dats m 0 c).arrAt_eq_of_cover 3 (GYX m c) (flushedYX m c) coverYX

/-! ## The lines after the kernel -/

/-- Lane 0 of batch b of an output array, as the program takes it (a slice of the first lane, then a cast to a vector of
    four). -/
theorem lane0 (a : S4x1x128.Idx → EReal) (f : Fin 4 → EReal) (ha : ∀ y, a y = f (batchOf y)) (b : Fin 4) :
    shapeCast S4 (extractStridedSlice S4x1x1 ![0, 0, 0] a slices_S4x1x128_S4x1x1_0_0_0) shapeCasts_S4x1x1_S4 (ix1 b) = f b := by
  refine (shapeCast_apply _ shapeCasts_S4x1x1_S4 (ix1 b) (ix3 b (0 : Fin 1) (0 : Fin 1)) ?_).trans ?_
  · rw [Shape.rowMajor_val_three, Shape.rowMajor_val_one]
    show (b.val * 1 + 0) * 1 + 0 = b.val
    omega
  · refine (extractStridedSlice_apply _ a _ _ (ix3 b (0 : Fin 1) (0 : Fin 128)) ?_).trans ?_
    · intro ax
      match ax with
      | ⟨0, _⟩ => exact (Nat.zero_add _).symm
      | ⟨1, _⟩ => rfl
      | ⟨2, _⟩ => rfl
    · rw [ha]; rfl

/-- The maximum of a vector of four from minus infinity is the supremum of its four entries. -/
theorem maxOver4 (x : S4.Idx → EReal) (f : Fin 4 → EReal) (hx : ∀ b, x (ix1 b) = f b) (j : S_.Idx) :
    Host.reduce (FloatOps.maximumf (F := Ideal) (φ := .f32)) x (constant (F := Ideal) S_ .f32 0xFF800000#32)
      reducesTo_S4_S_d0 h_S_ j = ⨆ b, f b := by
  have key := Host.reduce_eq_fold (α := EReal) (s := S4) (t := S_) (axes := [0]) (u := S_)
    (FloatOps.maximumf (F := Ideal) (φ := .f32)) x (constant (F := Ideal) S_ .f32 0xFF800000#32) reducesTo_S4_S_d0 h_S_ j
  rw [key, Finset.filter_true_of_mem (fun i _ => funext fun a => a.elim0)]
  show (Finset.univ : Finset S4.Idx).fold max (Ideal.ofBits .f32 0xFF800000#32) x = _
  rw [ofBits_ninf, fold_max_univ, max_eq_right bot_le]
  refine le_antisymm (iSup_le fun i => ?_) (iSup_le fun b => (hx b).symm.le.trans (le_iSup x (ix1 b)))
  have hi : i = ix1 (⟨(i 0).val, (i 0).isLt⟩ : Fin 4) := funext fun ax => by match ax with | ⟨0, _⟩ => rfl
  rw [hi, hx]
  exact le_iSup f _

/-- The program's result: the sum of the two directed terms of its two arguments. -/
theorem result_eq (c : Dev nD) :
    Pipeline.afterTail₀ cfgs (dats m) 0 (V0 m) [hostOps1] c main_v8
      = fun _ => hausdorff (m ((c : Thread nD τ).loc main_arg0)) (m ((c : Thread nD τ).loc main_arg1)) := by
  unfold Pipeline.afterTail₀
  show StableHlo.after hostOps1 _ (Proc.devRef .tc main_v8) = _
  after_results
  have e2 : Pipeline.withArrays (cfgs 0).spec c (V0 m c) (fun w => (dats m 0 c).arrAt w (cfgs 0).N)
      (Proc.devRef .tc main_v1_0) = GXY m c :=
    (Pipeline.withArrays_arr spec0 launch0.win.arr_inj c _ _ 2).trans (finalXY m c)
  have e3 : Pipeline.withArrays (cfgs 0).spec c (V0 m c) (fun w => (dats m 0 c).arrAt w (cfgs 0).N)
      (Proc.devRef .tc main_v1_1) = GYX m c :=
    (Pipeline.withArrays_arr spec0 launch0.win.arr_inj c _ _ 3).trans (finalYX m c)
  funext j
  refine (congrArg₂ (· + ·)
    (maxOver4 _ (fun b => ⨆ n, ⨅ k, D m c b n k) (fun b => ?_) j)
    (maxOver4 _ (fun b => ⨆ k, ⨅ n, D m c b n k) (fun b => ?_) j)).trans ?_
  · show shapeCast S4 (extractStridedSlice S4x1x1 ![0, 0, 0]
        (Pipeline.withArrays (cfgs 0).spec c (V0 m c) (fun w => (dats m 0 c).arrAt w (cfgs 0).N) (Proc.devRef .tc main_v1_0))
        slices_S4x1x128_S4x1x1_0_0_0) shapeCasts_S4x1x1_S4 (ix1 b) = _
    rw [e2]
    exact lane0 (GXY m c) (fun b => ⨆ n, ⨅ k, D m c b n k) (fun y => rfl) b
  · show shapeCast S4 (extractStridedSlice S4x1x1 ![0, 0, 0]
        (Pipeline.withArrays (cfgs 0).spec c (V0 m c) (fun w => (dats m 0 c).arrAt w (cfgs 0).N) (Proc.devRef .tc main_v1_1))
        slices_S4x1x128_S4x1x1_0_0_0) shapeCasts_S4x1x1_S4 (ix1 b) = _
    rw [e3]
    exact lane0 (GYX m c) (fun b => ⨆ k, ⨅ n, D m c b n k) (fun y => rfl) b
  · rfl

/-! ## The run, read -/

/-- Every weakly fair execution of the kernel program ends with its result at the sum of the two directed terms of the
    argument arrays, and the arguments unchanged. -/
theorem run : θ_run defs (onTc (τ := τ) (main (F := Ideal))) ⟨m, fun _ => 0, ρ⟩ fun r => ∀ c : Dev nD,
      r.2.mem ((c.tc : Thread nD τ).loc main_v8)
        = (fun _ => hausdorff (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v8 (Pipeline.mem_restRefs_of main_v8 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.KValue

end
-- ==== Proof.RefValue.lean ====
/-
  The reference program's result is the sum of the two directed Hausdorff terms of its two arguments.
-/
import proofs.«128619_j46377056862526_1_alg».proof.Proof.Gen.ReferenceIdeal.Read
import proofs.«128619_j46377056862526_1_alg».proof.Proof.Spec
import Idealize.ShloMosaic.Lib.ValueIdx
import Idealize.ShloMosaic.PureOps.Ideal.Laws

noncomputable section

open Idealize.ShloMosaic Idealize.ShloMosaic.ValueIdx

namespace Cert.ReferenceIdeal.RefValue

open Cert.ReferenceIdeal Cert.ReferenceIdeal.Gen Cert.ReferenceIdeal.Read Cert.Hausdorff

/-- Entry (b, n, m) of the rooted table the reference forms is the distance of point n of the first cloud and
    point m of the second, in batch b. -/
theorem v7_at (x0 x1 : (⟨S4x4096x3, .f32⟩ : BufTy).Contents (Elt Ideal)) (b : Fin 4) (n m : Fin 4096) :
    val_main_v7 (F := Ideal) x0 x1 (ix3 b n m) = table x0 x1 b n m := by
  unfold table
  refine Eq.trans ?_ (dist_eq_sum (fun k => x0 (ix3 b n k)) (fun k => x1 (ix3 b m k))).symm
  rw [val_main_v7_apply, val_main_v6_apply, Ideal.hostUnary_sqrt_def, val_main_cst_apply, Ideal.ofBits_def]
  refine congrArg (fun z => Ideal.sqrt (Ideal.ofBits .f32 0x00000000#32 + z)) (Finset.sum_congr rfl fun k _ => ?_)
  rw [val_main_v5_apply, val_main_v4_apply, val_main_v2_apply, val_main_v0_apply, val_main_v3_apply,
    val_main_v1_apply, Ideal.mulf_def, Ideal.subf_def]
  have e0 : idx_main_v0 (idx_main_v2 (idx_main_v6 (ix3 b n m) k)) = ix3 b n k :=
    funext fun a => Fin.ext (by match a with | ⟨0, _⟩ => rfl | ⟨1, _⟩ => rfl | ⟨2, _⟩ => rfl)
  have e1 : idx_main_v1 (idx_main_v3 (idx_main_v6 (ix3 b n m) k)) = ix3 b m k :=
    funext fun a => Fin.ext (by match a with | ⟨0, _⟩ => rfl | ⟨1, _⟩ => rfl | ⟨2, _⟩ => rfl)
  rw [e0, e1]

/-- The shape facts that name the inserted index of the two one-axis minimum reductions. -/
theorem red_d2 : S4x4096x4096.Reduces [2] S4x4096 := by decide
theorem red_d1 : S4x4096x4096.Reduces [1] S4x4096 := by decide

/-- A fold of the ideal minimum from plus infinity over an axis of 4096 is the infimum over that axis. -/
theorem fold_minimumf_top (f : Fin 4096 → EReal) :
    (Finset.univ : Finset (Fin 4096)).fold (FloatOps.minimumf (F := Ideal) (φ := .f32))
      (Ideal.ofBits .f32 0x7F800000#32) f = ⨅ m, f m := by
  rw [ofBits_pinf]
  exact (fold_min_univ ⊤ f).trans (min_eq_right le_top)

/-- A minimum reduction of any rank-3 table over its last axis, read at (b, n): the fold over the last coordinate. -/
theorem reduce_min_d2 (y : S4x4096x4096.Idx → EReal) (init : S_.Idx → EReal) (b : Fin 4) (n : Fin 4096) :
    Host.reduce (FloatOps.minimumf (F := Ideal) (φ := .f32)) y init reducesTo_S4x4096x4096_S4x4096_d2 h_S_ (ix2 b n)
      = (Finset.univ : Finset (Fin 4096)).fold (FloatOps.minimumf (F := Ideal) (φ := .f32))
          (init (Shape.Idx.first h_S_)) (fun m => y (ix3 b n m)) := by
  have key := Host.reduce_eq_fold_single (α := EReal) (s := S4x4096x4096) (t := S4x4096) (a := 2) (u := S_)
    (FloatOps.minimumf (F := Ideal) (φ := .f32)) y init reducesTo_S4x4096x4096_S4x4096_d2 red_d2 h_S_ (ix2 b n)
  have hf : (y ∘ red_d2.lift (ix2 b n)) = fun m : Fin 4096 => y (ix3 b n m) := by
    funext m
    exact congrArg y (funext fun a => Fin.ext (by match a with | ⟨0, _⟩ => rfl | ⟨1, _⟩ => rfl | ⟨2, _⟩ => rfl))
  rw [key, hf]
  rfl

/-- The same over the middle axis, read at (b, m): the fold over the middle coordinate. -/
theorem reduce_min_d1 (y : S4x4096x4096.Idx → EReal) (init : S_.Idx → EReal) (b : Fin 4) (m : Fin 4096) :
    Host.reduce (FloatOps.minimumf (F := Ideal) (φ := .f32)) y init reducesTo_S4x4096x4096_S4x4096_d1 h_S_ (ix2 b m)
      = (Finset.univ : Finset (Fin 4096)).fold (FloatOps.minimumf (F := Ideal) (φ := .f32))
          (init (Shape.Idx.first h_S_)) (fun n => y (ix3 b n m)) := by
  have key := Host.reduce_eq_fold_single (α := EReal) (s := S4x4096x4096) (t := S4x4096) (a := 1) (u := S_)
    (FloatOps.minimumf (F := Ideal) (φ := .f32)) y init reducesTo_S4x4096x4096_S4x4096_d1 red_d1 h_S_ (ix2 b m)
  have hf : (y ∘ red_d1.lift (ix2 b m)) = fun n : Fin 4096 => y (ix3 b n m) := by
    funext n
    exact congrArg y (funext fun a => Fin.ext (by match a with | ⟨0, _⟩ => rfl | ⟨1, _⟩ => rfl | ⟨2, _⟩ => rfl))
  rw [key, hf]
  rfl

/-- The minimum over the second cloud's points: entry (b, n) is the least distance from point n of the first cloud. -/
theorem v8_at (x0 x1 : (⟨S4x4096x3, .f32⟩ : BufTy).Contents (Elt Ideal)) (b : Fin 4) (n : Fin 4096) :
    val_main_v8 (F := Ideal) x0 x1 (ix2 b n) = ⨅ m, table x0 x1 b n m := by
  unfold val_main_v8
  have hv : ∀ m : Fin 4096, val_main_v7 (F := Ideal) x0 x1 (ix3 b n m) = table x0 x1 b n m := v7_at x0 x1 b n
  generalize val_main_v7 (F := Ideal) x0 x1 = y at hv ⊢
  refine (reduce_min_d2 y (val_main_cst_0 (F := Ideal)) b n).trans ?_
  rw [funext hv, val_main_cst_0_apply, Ideal.ofBits_def]
  exact fold_minimumf_top _

/-- The minimum over the first cloud's points: entry (b, m) is the least distance to point m of the second cloud. -/
theorem v10_at (x0 x1 : (⟨S4x4096x3, .f32⟩ : BufTy).Contents (Elt Ideal)) (b : Fin 4) (m : Fin 4096) :
    val_main_v10 (F := Ideal) x0 x1 (ix2 b m) = ⨅ n, table x0 x1 b n m := by
  unfold val_main_v10
  have hv : ∀ n : Fin 4096, val_main_v7 (F := Ideal) x0 x1 (ix3 b n m) = table x0 x1 b n m :=
    fun n => v7_at x0 x1 b n m
  generalize val_main_v7 (F := Ideal) x0 x1 = y at hv ⊢
  refine (reduce_min_d1 y (val_main_cst_2 (F := Ideal)) b m).trans ?_
  rw [funext hv, val_main_cst_2_apply, Ideal.ofBits_def]
  exact fold_minimumf_top _

/-- A maximum reduction of any rank-2 table over both its axes, from minus infinity, is the double supremum over the
    two coordinates: every index of the table drops to the one index of the rank-0 result. -/
theorem reduce_max_all (y : S4x4096.Idx → EReal) (init : S_.Idx → EReal)
    (hinit : init (Shape.Idx.first h_S_) = ⊥) (j : S_.Idx) :
    Host.reduce (FloatOps.maximumf (F := Ideal) (φ := .f32)) y init reducesTo_S4x4096_S_d0_1 h_S_ j
      = ⨆ (b : Fin 4) (n : Fin 4096), y (ix2 b n) := by
  have key := Host.reduce_eq_fold (α := EReal) (s := S4x4096) (t := S_) (axes := [0, 1]) (u := S_)
    (FloatOps.maximumf (F := Ideal) (φ := .f32)) y init reducesTo_S4x4096_S_d0_1 h_S_ j
  rw [key, hinit, Finset.filter_true_of_mem (fun i _ => funext fun a => a.elim0)]
  refine (fold_max_univ ⊥ y).trans ?_
  rw [max_eq_right bot_le]
  refine le_antisymm (iSup_le fun i => ?_) (iSup_le fun b => iSup_le fun n => le_iSup y (ix2 b n))
  exact (congrArg y (eq_ix2 i)).le.trans
    (le_iSup₂ (f := fun (b : Fin 4) (n : Fin 4096) => y (ix2 b n)) (i 0) (i 1))

/-- The first directed term: the greatest, over batches and points of the first cloud, of the nearest distances. -/
theorem v9_at (x0 x1 : (⟨S4x4096x3, .f32⟩ : BufTy).Contents (Elt Ideal)) (j : S_.Idx) :
    val_main_v9 (F := Ideal) x0 x1 j = ⨆ (b : Fin 4) (n : Fin 4096), ⨅ m, table x0 x1 b n m := by
  unfold val_main_v9
  have hv : ∀ (b : Fin 4) (n : Fin 4096), val_main_v8 (F := Ideal) x0 x1 (ix2 b n) = ⨅ m, table x0 x1 b n m :=
    v8_at x0 x1
  generalize val_main_v8 (F := Ideal) x0 x1 = y at hv ⊢
  refine (reduce_max_all y (val_main_cst_1 (F := Ideal)) ?_ j).trans ?_
  · rw [val_main_cst_1_apply, Ideal.ofBits_def]; exact ofBits_ninf
  · exact iSup_congr fun b => iSup_congr fun n => hv b n

/-- The second directed term: the greatest, over batches and points of the second cloud, of the nearest distances. -/
theorem v11_at (x0 x1 : (⟨S4x4096x3, .f32⟩ : BufTy).Contents (Elt Ideal)) (j : S_.Idx) :
    val_main_v11 (F := Ideal) x0 x1 j = ⨆ (b : Fin 4) (m : Fin 4096), ⨅ n, table x0 x1 b n m := by
  unfold val_main_v11
  have hv : ∀ (b : Fin 4) (m : Fin 4096), val_main_v10 (F := Ideal) x0 x1 (ix2 b m) = ⨅ n, table x0 x1 b n m :=
    v10_at x0 x1
  generalize val_main_v10 (F := Ideal) x0 x1 = y at hv ⊢
  refine (reduce_max_all y (val_main_cst_3 (F := Ideal)) ?_ j).trans ?_
  · rw [val_main_cst_3_apply, Ideal.ofBits_def]; exact ofBits_ninf
  · exact iSup_congr fun b => iSup_congr fun m => hv b m

/-- The reference's one result, over the extended reals. -/
theorem ref_value (x0 x1 : (⟨S4x4096x3, .f32⟩ : BufTy).Contents (Elt Ideal)) :
    val_main_v12 (F := Ideal) x0 x1 = fun _ => hausdorff x0 x1 := by
  funext j
  show val_main_v12 (F := Ideal) x0 x1 j = hausdorff x0 x1
  unfold hausdorff
  rw [val_main_v12_apply, Ideal.addf_def, v9_at, v11_at]

end Cert.ReferenceIdeal.RefValue

end
-- ==== Proof.lean ====
/-
  The sum of the two directed Hausdorff terms of two clouds of 4096 points in each of four batches: a tiled kernel
  against the plain formula.

  Both programs form the same distance table, entry by entry (the squared coordinate differences added to zero, then
  the root), so nothing is asked of the inputs beyond what the statement gives.  The reference takes, per batch, the
  least entry of every row and of every column, then the greatest of all of those over rows (columns) and batches, and
  adds the two.  The kernel walks each batch's table in sixteen tiles of 1024 by 1024, row tile by row tile, keeping
  the column minima, the row minima of the current row tile and the greatest finished row minimum; infima and suprema
  over the extended reals regroup freely, so after the last tile of a batch these are the batch's two terms, which the
  kernel writes out; the program then takes the maximum over the four batches of either and adds them.

  Spec.lean: the closed forms and their update equations.  Pieces.lean: what each control case of the body leaves.
  TileValue.lean: the body's arithmetic at an index.  Blocks.lean: the input blocks at a grid point.  Invariant.lean:
  the running state, by induction on the grid point.  KernelValue.lean: the output arrays and the program's result.
  RefValue.lean: the reference's result.
-/
import proofs.«128619_j46377056862526_1_alg».proof.Defs
import proofs.«128619_j46377056862526_1_alg».proof.Proof.Gen.Kernel
import proofs.«128619_j46377056862526_1_alg».proof.Proof.Gen.Kernel.Skeleton
import proofs.«128619_j46377056862526_1_alg».proof.Proof.Gen.Kernel.Launch
import proofs.«128619_j46377056862526_1_alg».proof.Proof.Gen.Kernel.Points
import proofs.«128619_j46377056862526_1_alg».proof.Proof.Gen.Kernel.Frame
import proofs.«128619_j46377056862526_1_alg».proof.Proof.Gen.KernelIdeal
import proofs.«128619_j46377056862526_1_alg».proof.Proof.Gen.KernelIdeal.Skeleton
import proofs.«128619_j46377056862526_1_alg».proof.Proof.Gen.KernelIdeal.Launch
import proofs.«128619_j46377056862526_1_alg».proof.Proof.Gen.KernelIdeal.Points
import proofs.«128619_j46377056862526_1_alg».proof.Proof.Gen.KernelIdeal.Frame
import proofs.«128619_j46377056862526_1_alg».proof.Proof.Gen.ReferenceIdeal
import proofs.«128619_j46377056862526_1_alg».proof.Proof.Gen.Pre_finite_inputs
import proofs.«128619_j46377056862526_1_alg».proof.Proof.Gen.ReferenceIdeal.Run
import proofs.«128619_j46377056862526_1_alg».proof.Proof.Gen.ReferenceIdeal.Read
import proofs.«128619_j46377056862526_1_alg».proof.Proof.KernelValue
import proofs.«128619_j46377056862526_1_alg».proof.Proof.RefValue
import Idealize.ShloMosaic.Adequacy
import Idealize.ShloMosaic.Init

noncomputable section

namespace Cert.Proof

open Idealize.ShloMosaic Idealize.ShloMosaic.TcCoe Idealize.SL.Sem Cert.Hausdorff

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Over the extended reals both programs end with the sum of the two directed terms of arguments that agree. -/
theorem algebraic : Cert.algebraic_KernelIdeal_ReferenceIdeal := by
  intro m ρ m' ρ' _ hagree
  refine ⟨fun c => fun _ => hausdorff (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  show _ = fun _ => hausdorff (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
  rw [Cert.ReferenceIdeal.Read.val_main_v12_eq, Cert.ReferenceIdeal.RefValue.ref_value, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
